-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel

variable [Facts]

def fn {F : FTy → Type} [FloatOps F] (main_arg0 : FVec F S262144x128 .f32) (main_arg1 : IVec S262144 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  main_v3
-- ==== Kernel.lean ====
abbrev S262144x128 : Shape := ⟨2, ![262144, 128]⟩
abbrev S262144 : Shape := ⟨1, ![262144]⟩
abbrev S262144x1 : Shape := ⟨2, ![262144, 1]⟩
abbrev S15x128 : Shape := ⟨2, ![15, 128]⟩
abbrev S2048x128 : Shape := ⟨2, ![2048, 128]⟩
abbrev S2048x1 : Shape := ⟨2, ![2048, 1]⟩
abbrev S2048 : Shape := ⟨1, ![2048]⟩
abbrev S1x128 : Shape := ⟨2, ![1, 128]⟩
abbrev S128 : Shape := ⟨1, ![128]⟩
abbrev S128x15 : Shape := ⟨2, ![128, 15]⟩
abbrev S_ : Shape := ⟨0, ![]⟩

abbrev nBuf : Space → Nat
  | .hbm => 44
  | .vmem => 10
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S262144x1, .i32⟩
  | .hbm, ⟨3, _⟩ => ⟨S15x128, .f32⟩
  | .hbm, ⟨4, _⟩ => ⟨S15x128, .f32⟩
  | .hbm, ⟨5, _⟩ => ⟨S15x128, .f32⟩
  | .hbm, ⟨6, _⟩ => ⟨S128x15, .f32⟩
  | .hbm, ⟨7, _⟩ => ⟨S128x15, .f32⟩
  | .hbm, ⟨8, _⟩ => ⟨S128x15, .f32⟩
  | .hbm, ⟨9, _⟩ => ⟨S_, .f32⟩
  | .hbm, ⟨10, _⟩ => ⟨S128x15, .f32⟩
  | .hbm, ⟨11, _⟩ => ⟨S128x15, .i1⟩
  | .hbm, ⟨12, _⟩ => ⟨S_, .f32⟩
  | .hbm, ⟨13, _⟩ => ⟨S128x15, .f32⟩
  | .hbm, ⟨14, _⟩ => ⟨S128x15, .f32⟩
  | .hbm, ⟨15, _⟩ => ⟨S128x15, .f32⟩
  | .hbm, ⟨16, _⟩ => ⟨S128x15, .f32⟩
  | .hbm, ⟨17, _⟩ => ⟨S128x15, .f32⟩
  | .hbm, ⟨18, _⟩ => ⟨S128x15, .f32⟩
  | .hbm, ⟨19, _⟩ => ⟨S128x15, .f32⟩
  | .hbm, ⟨20, _⟩ => ⟨S_, .f32⟩
  | .hbm, ⟨21, _⟩ => ⟨S128x15, .f32⟩
  | .hbm, ⟨22, _⟩ => ⟨S128x15, .f32⟩
  | .hbm, ⟨23, _⟩ => ⟨S_, .f32⟩
  | .hbm, ⟨24, _⟩ => ⟨S_, .f32⟩
  | .hbm, ⟨25, _⟩ => ⟨S128x15, .f32⟩
  | .hbm, ⟨26, _⟩ => ⟨S128x15, .f32⟩
  | .hbm, ⟨27, _⟩ => ⟨S_, .f32⟩
  | .hbm, ⟨28, _⟩ => ⟨S128, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i1⟩
  | .hbm, ⟨36, _⟩ => ⟨S_, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x1, .i32⟩
  | .local _ .vmem, ⟨3, _⟩ => ⟨S2048x1, .i32⟩
  | .local _ .vmem, ⟨4, _⟩ => ⟨S15x128, .f32⟩
  | .local _ .vmem, ⟨5, _⟩ => ⟨S15x128, .f32⟩
  | .local _ .vmem, ⟨6, _⟩ => ⟨S15x128, .f32⟩
  | .local _ .vmem, ⟨7, _⟩ => ⟨S15x128, .f32⟩
  | .local _ .vmem, ⟨8, _⟩ => ⟨S15x128, .f32⟩
  | .local _ .vmem, ⟨9, _⟩ => ⟨S15x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v456 : BitVec 1 := Scalar.cmpi .eq arg0 c127_i32
  let v457 : BitVec 32 := Scalar.extui v456
  let c0_i32_222 : BitVec 32 := 0#32
  let v458 : BitVec 1 := Scalar.cmpi .ne v457 c0_i32_222
  v458

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S15x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S15x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S262144_S262144x1 : S262144.ShapeCasts S262144x1
  inb_S15x128_S15x128_0_0 : ∀ a, (![0, 0] : Fin 2 → Nat) a + S15x128.size a ≤ S15x128.size a
  h_S15x128 : 0 < S15x128.numel
  shapeCasts_S15x128_S15x128 : S15x128.ShapeCasts S15x128
  inb_S2048x128_S2048x128_0_0 : ∀ a, (![0, 0] : Fin 2 → Nat) a + S2048x128.size a ≤ S2048x128.size a
  h_S2048x128 : 0 < S2048x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x128_S2048 : S2048x128.Reduces [1] S2048
  shapeCasts_S2048_S2048x1 : S2048.ShapeCasts S2048x1
  broadcasts_S2048x1_S2048x128 : S2048x1.Broadcasts S2048x128
  natLt_1_32 : 1 < 32
  iota_S2048x128_d1_w32 : S2048x128.Iotas .tc 32 [1]
  inb_S15x128_S1x128_0_0 : ∀ a, (![0, 0] : Fin 2 → Nat) a + S1x128.size a ≤ S15x128.size a
  h_S1x128 : 0 < S1x128.numel
  reduces_S2048x128_S128 : S2048x128.Reduces [0] S128
  shapeCasts_S128_S1x128 : S128.ShapeCasts S1x128
  shapeCasts_S1x128_S1x128 : S1x128.ShapeCasts S1x128
  inb_S15x128_S1x128_1_0 : ∀ a, (![1, 0] : Fin 2 → Nat) a + S1x128.size a ≤ S15x128.size a
  inb_S15x128_S1x128_2_0 : ∀ a, (![2, 0] : Fin 2 → Nat) a + S1x128.size a ≤ S15x128.size a
  inb_S15x128_S1x128_3_0 : ∀ a, (![3, 0] : Fin 2 → Nat) a + S1x128.size a ≤ S15x128.size a
  inb_S15x128_S1x128_4_0 : ∀ a, (![4, 0] : Fin 2 → Nat) a + S1x128.size a ≤ S15x128.size a
  inb_S15x128_S1x128_5_0 : ∀ a, (![5, 0] : Fin 2 → Nat) a + S1x128.size a ≤ S15x128.size a
  inb_S15x128_S1x128_6_0 : ∀ a, (![6, 0] : Fin 2 → Nat) a + S1x128.size a ≤ S15x128.size a
  inb_S15x128_S1x128_7_0 : ∀ a, (![7, 0] : Fin 2 → Nat) a + S1x128.size a ≤ S15x128.size a
  inb_S15x128_S1x128_8_0 : ∀ a, (![8, 0] : Fin 2 → Nat) a + S1x128.size a ≤ S15x128.size a
  inb_S15x128_S1x128_9_0 : ∀ a, (![9, 0] : Fin 2 → Nat) a + S1x128.size a ≤ S15x128.size a
  inb_S15x128_S1x128_10_0 : ∀ a, (![10, 0] : Fin 2 → Nat) a + S1x128.size a ≤ S15x128.size a
  inb_S15x128_S1x128_11_0 : ∀ a, (![11, 0] : Fin 2 → Nat) a + S1x128.size a ≤ S15x128.size a
  inb_S15x128_S1x128_12_0 : ∀ a, (![12, 0] : Fin 2 → Nat) a + S1x128.size a ≤ S15x128.size a
  inb_S15x128_S1x128_13_0 : ∀ a, (![13, 0] : Fin 2 → Nat) a + S1x128.size a ≤ S15x128.size a
  inb_S15x128_S1x128_14_0 : ∀ a, (![14, 0] : Fin 2 → Nat) a + S1x128.size a ≤ S15x128.size a
  transposes_S15x128_S128x15_1_0 : S15x128.Transposes [1, 0] S128x15
  bcast_S_S128x15 : S_.BroadcastsInDim S128x15 (![] : Fin 0 → Fin S128x15.rank)
  reducesTo_S128x15_S128_d1 : S128x15.ReducesTo [1] S128
  h_S_ : 0 < S_.numel
  reducesTo_S262144_S_d0 : S262144.ReducesTo [0] S_
  bcast_S_S128 : S_.BroadcastsInDim S128 (![] : Fin 0 → Fin S128.rank)
  reducesTo_S128_S_d0 : S128.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x128.size a ≤ S15x128.size a
  hwx0_2 : ∀ i : grid0.Coords, EltTy.bits .f32 = 32 ∨ (Rect.block (s := S15x128) S15x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x128.size a ≤ S15x128.size a
  hwx0_3 : ∀ i : grid0.Coords, EltTy.bits .f32 = 32 ∨ (Rect.block (s := S15x128) S15x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S15x128.size a ≤ S15x128.size a
  hwx0_4 : ∀ i : grid0.Coords, EltTy.bits .f32 = 32 ∨ (Rect.block (s := S15x128) S15x128.size (cc0_transform_4 i) (hinb0_4 i)).WholeWords (EltTy.packing .f32)

variable [Facts₀]

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S15x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S15x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S15x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S262144x128 : Shape := ⟨2, ![262144, 128]⟩
abbrev S262144 : Shape := ⟨1, ![262144]⟩
abbrev S_ : Shape := ⟨0, ![]⟩
abbrev S262144x1 : Shape := ⟨2, ![262144, 1]⟩
abbrev S128 : Shape := ⟨1, ![128]⟩
abbrev S1x128 : Shape := ⟨2, ![1, 128]⟩
abbrev S33554432 : Shape := ⟨1, ![33554432]⟩
abbrev S1920 : Shape := ⟨1, ![1920]⟩
abbrev S33554432x1 : Shape := ⟨2, ![33554432, 1]⟩
abbrev S128x15 : Shape := ⟨2, ![128, 15]⟩

abbrev nBuf : Space → Nat
  | .hbm => 104
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S262144, .f32⟩
  | .hbm, ⟨6, _⟩ => ⟨S262144, .f32⟩
  | .hbm, ⟨7, _⟩ => ⟨S262144x1, .f32⟩
  | .hbm, ⟨8, _⟩ => ⟨S262144x128, .f32⟩
  | .hbm, ⟨9, _⟩ => ⟨S262144x128, .f32⟩
  | .hbm, ⟨10, _⟩ => ⟨S262144x128, .f32⟩
  | .hbm, ⟨11, _⟩ => ⟨S_, .f32⟩
  | .hbm, ⟨12, _⟩ => ⟨S262144, .f32⟩
  | .hbm, ⟨13, _⟩ => ⟨S262144x1, .f32⟩
  | .hbm, ⟨14, _⟩ => ⟨S262144x128, .f32⟩
  | .hbm, ⟨15, _⟩ => ⟨S262144x128, .f32⟩
  | .hbm, ⟨16, _⟩ => ⟨S_, .f32⟩
  | .hbm, ⟨17, _⟩ => ⟨S262144x128, .f32⟩
  | .hbm, ⟨18, _⟩ => ⟨S262144x128, .i1⟩
  | .hbm, ⟨19, _⟩ => ⟨S_, .f32⟩
  | .hbm, ⟨20, _⟩ => ⟨S262144x128, .f32⟩
  | .hbm, ⟨21, _⟩ => ⟨S262144x128, .f32⟩
  | .hbm, ⟨22, _⟩ => ⟨S262144x128, .f32⟩
  | .hbm, ⟨23, _⟩ => ⟨S262144x128, .i32⟩
  | .hbm, ⟨24, _⟩ => ⟨S_, .i32⟩
  | .hbm, ⟨25, _⟩ => ⟨S262144x128, .i32⟩
  | .hbm, ⟨26, _⟩ => ⟨S262144x128, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S262144x128, .i32⟩
  | .hbm, ⟨31, _⟩ => ⟨S262144x128, .i32⟩
  | .hbm, ⟨32, _⟩ => ⟨S_, .i32⟩
  | .hbm, ⟨33, _⟩ => ⟨S262144x128, .i32⟩
  | .hbm, ⟨34, _⟩ => ⟨S262144x128, .i32⟩
  | .hbm, ⟨35, _⟩ => ⟨S128, .i32⟩
  | .hbm, ⟨36, _⟩ => ⟨S1x128, .i32⟩
  | .hbm, ⟨37, _⟩ => ⟨S_, .i32⟩
  | .hbm, ⟨38, _⟩ => ⟨S1x128, .i32⟩
  | .hbm, ⟨39, _⟩ => ⟨S1x128, .i32⟩
  | .hbm, ⟨40, _⟩ => ⟨S262144x128, .i32⟩
  | .hbm, ⟨41, _⟩ => ⟨S262144x128, .i32⟩
  | .hbm, ⟨42, _⟩ => ⟨S33554432, .i32⟩
  | .hbm, ⟨43, _⟩ => ⟨S262144x128, .f32⟩
  | .hbm, ⟨44, _⟩ => ⟨S33554432, .f32⟩
  | .hbm, ⟨45, _⟩ => ⟨S_, .f32⟩
  | .hbm, ⟨46, _⟩ => ⟨S1920, .f32⟩
  | .hbm, ⟨47, _⟩ => ⟨S33554432x1, .i32⟩
  | .hbm, ⟨48, _⟩ => ⟨S1920, .f32⟩
  | .hbm, ⟨49, _⟩ => ⟨S262144x128, .f32⟩
  | .hbm, ⟨50, _⟩ => ⟨S33554432, .f32⟩
  | .hbm, ⟨51, _⟩ => ⟨S_, .f32⟩
  | .hbm, ⟨52, _⟩ => ⟨S1920, .f32⟩
  | .hbm, ⟨53, _⟩ => ⟨S33554432x1, .i32⟩
  | .hbm, ⟨54, _⟩ => ⟨S1920, .f32⟩
  | .hbm, ⟨55, _⟩ => ⟨S262144x1, .i32⟩
  | .hbm, ⟨56, _⟩ => ⟨S262144x128, .i32⟩
  | .hbm, ⟨57, _⟩ => ⟨S262144x128, .i32⟩
  | .hbm, ⟨58, _⟩ => ⟨S262144x128, .i1⟩
  | .hbm, ⟨59, _⟩ => ⟨S262144x128, .f32⟩
  | .hbm, ⟨60, _⟩ => ⟨S262144x128, .f32⟩
  | .hbm, ⟨61, _⟩ => ⟨S33554432, .f32⟩
  | .hbm, ⟨62, _⟩ => ⟨S_, .f32⟩
  | .hbm, ⟨63, _⟩ => ⟨S1920, .f32⟩
  | .hbm, ⟨64, _⟩ => ⟨S33554432x1, .i32⟩
  | .hbm, ⟨65, _⟩ => ⟨S1920, .f32⟩
  | .hbm, ⟨66, _⟩ => ⟨S128x15, .f32⟩
  | .hbm, ⟨67, _⟩ => ⟨S128x15, .f32⟩
  | .hbm, ⟨68, _⟩ => ⟨S128x15, .f32⟩
  | .hbm, ⟨69, _⟩ => ⟨S_, .f32⟩
  | .hbm, ⟨70, _⟩ => ⟨S128x15, .f32⟩
  | .hbm, ⟨71, _⟩ => ⟨S128x15, .i1⟩
  | .hbm, ⟨72, _⟩ => ⟨S_, .f32⟩
  | .hbm, ⟨73, _⟩ => ⟨S128x15, .f32⟩
  | .hbm, ⟨74, _⟩ => ⟨S128x15, .f32⟩
  | .hbm, ⟨75, _⟩ => ⟨S128x15, .f32⟩
  | .hbm, ⟨76, _⟩ => ⟨S128x15, .f32⟩
  | .hbm, ⟨77, _⟩ => ⟨S128x15, .f32⟩
  | .hbm, ⟨78, _⟩ => ⟨S128x15, .f32⟩
  | .hbm, ⟨79, _⟩ => ⟨S128x15, .f32⟩
  | .hbm, ⟨80, _⟩ => ⟨S_, .f32⟩
  | .hbm, ⟨81, _⟩ => ⟨S128x15, .f32⟩
  | .hbm, ⟨82, _⟩ => ⟨S128x15, .f32⟩
  | .hbm, ⟨83, _⟩ => ⟨S_, .f32⟩
  | .hbm, ⟨84, _⟩ => ⟨S_, .f32⟩
  | .hbm, ⟨85, _⟩ => ⟨S128x15, .f32⟩
  | .hbm, ⟨86, _⟩ => ⟨S128x15, .f32⟩
  | .hbm, ⟨87, _⟩ => ⟨S_, .f32⟩
  | .hbm, ⟨88, _⟩ => ⟨S128, .f32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S128, .i32⟩
  | .hbm, ⟨94, _⟩ => ⟨S128, .i32⟩
  | .hbm, ⟨95, _⟩ => ⟨S128, .i1⟩
  | .hbm, ⟨96, _⟩ => ⟨S_, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_c_5 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_call1_v0 : Ref sig .tc := ⟨.hbm, 84, rfl⟩
abbrev main_call1_v1 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_c_15 : Ref sig .tc := ⟨.hbm, 89, rfl⟩
abbrev main_v63 : Ref sig .tc := ⟨.hbm, 90, rfl⟩
abbrev main_c_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_17 : Ref sig .tc := ⟨.hbm, 96, rfl⟩
abbrev main_call2_v0 : Ref sig .tc := ⟨.hbm, 97, rfl⟩
abbrev main_call2_v1 : Ref sig .tc := ⟨.hbm, 98, rfl⟩
abbrev main_v68 : Ref sig .tc := ⟨.hbm, 99, rfl⟩
abbrev main_cst_18 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  bcast_S_S262144x128 : S_.BroadcastsInDim S262144x128 (![] : Fin 0 → Fin S262144x128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S262144x128_0_1 : S1x128.BroadcastsInDim S262144x128 (![0, 1] : Fin 2 → Fin S262144x128.rank)
  shapeCasts_S262144x128_S33554432 : S262144x128.ShapeCasts S33554432
  bcast_S_S1920 : S_.BroadcastsInDim S1920 (![] : Fin 0 → Fin S1920.rank)
  bcast_S33554432_S33554432x1_0 : S33554432.BroadcastsInDim S33554432x1 (![0] : Fin 1 → Fin S33554432x1.rank)
  shapeCasts_S1920_S128x15 : S1920.ShapeCasts S128x15
  bcast_S_S128x15 : S_.BroadcastsInDim S128x15 (![] : Fin 0 → Fin S128x15.rank)
  reducesTo_S128x15_S128_d1 : S128x15.ReducesTo [1] S128
  reducesTo_S262144_S_d0 : S262144.ReducesTo [0] S_
  bcast_S_S128 : S_.BroadcastsInDim S128 (![] : Fin 0 → Fin S128.rank)
  reducesTo_S128_S_d0 : S128.ReducesTo [0] S_
  scatter_S1920_S33554432x1_S33554432_n_0_0_1_wf : ScatterDims.WF S1920 S33554432x1 S33554432 [] [0] [0] 1

variable [Facts₀]

def scatter_S1920_S33554432x1_S33554432_n_0_0_1 : ScatterDims S1920 S33554432x1 S33554432 where
  updateWindowDims := []
  insertedWindowDims := [0]
  scatterDimsToOperandDims := [0]
  indexVectorDim := 1
  wf := scatter_S1920_S33554432x1_S33554432_n_0_0_1_wf

class Facts : Prop extends Facts₀ where

variable [Facts]
-- ==== Proof.Vocab.lean ====
/-
  One vocabulary for what the kernel computes on a block of 2048 rows, at any float instance.

  For a block `x` of logits (2048 rows of 128 classes) and the rows' labels `l`:
    * `probs x`  — each row's softmax: exp (x - row max) divided by the row's sum of those exponentials;
    * `valid x`  — 1 where the probability is positive, else 0;
    * `bins x`   — the bin of each probability among 15 equal bins (k/15, (k+1)/15]: ceil (15 p) - 1 clipped to 0..14;
    * `hot l`    — 1 at (row, class) when the row's label is that class, else 0;
    * the three weights a (row, class) entry adds to its bin: `valid`, `probs * valid`, `hot * valid`;
    * `maskOf b x` — 1 where the bin is `b`, else 0;
    * `colSum v` — the sum of `v` down its 2048 rows, as one row of 128.
  One accumulation step adds, to row `b` of a 15 x 128 table, `colSum (maskOf b x * weight)`.
-/
import proofs.«110949_j635655159837_1_alg».proof.KernelIdeal

noncomputable section

namespace Cert.KernelIdeal.Hist

open Idealize.ShloMosaic Idealize.ShloMosaic.TcCoe Cert.KernelIdeal
open Cert.KernelIdeal.Facts₀ Cert.KernelIdeal.Facts

variable {F : FTy → Type} [FloatOps F] [Facts]

/-- The largest entry of each row (from minus infinity). -/
def rowMax (x : Vec F S2048x128 .f32) : FVec F S2048 .f32 :=
  multiReduction .maximumf [1] S2048 x 0xFF800000#32 reduces_S2048x128_S2048 (.inl rfl) rfl

/-- exp (x - row max), entry by entry. -/
def expShift (x : Vec F S2048x128 .f32) : FVec F S2048x128 .f32 :=
  exp (subf x (broadcastTo S2048x128 (shapeCast S2048x1 (rowMax x) shapeCasts_S2048_S2048x1) broadcasts_S2048x1_S2048x128))

/-- Each row's sum of the shifted exponentials. -/
def rowSum (x : Vec F S2048x128 .f32) : FVec F S2048 .f32 :=
  multiReduction .add [1] S2048 (expShift x) 0x00000000#32 reduces_S2048x128_S2048 (.inl rfl) rfl

/-- The softmax of each row. -/
def probs (x : Vec F S2048x128 .f32) : FVec F S2048x128 .f32 :=
  divf (expShift x) (broadcastTo S2048x128 (shapeCast S2048x1 (rowSum x) shapeCasts_S2048_S2048x1) broadcasts_S2048x1_S2048x128)

/-- 1 where the probability is positive, else 0. -/
def valid (x : Vec F S2048x128 .f32) : FVec F S2048x128 .f32 :=
  sitofp .f32 (extui 32 (cmpf .ogt (probs x) (broadcast S2048x128 (Scalar.ofBits .f32 0x00000000#32))) natLt_1_32)

/-- ceil (15 p) - 1, clipped to 0 .. 14. -/
def bins (x : Vec F S2048x128 .f32) : IVec S2048x128 32 :=
  minsi (broadcast S2048x128 (14#32 : BitVec 32))
    (maxsi (broadcast S2048x128 (0#32 : BitVec 32))
      (subi (fptosi 32 (ceil (mulf (probs x) (broadcast S2048x128 (Scalar.ofBits .f32 0x41700000#32)))))
        (broadcast S2048x128 (1#32 : BitVec 32))))

/-- 1 at (row, class) when the row's label is the class, else 0. -/
def hot (l : Vec F S2048x1 .i32) : FVec F S2048x128 .f32 :=
  sitofp .f32 (extui 32 (cmpi .eq
    (broadcastTo S2048x128 (shapeCast S2048x1 l shapeCasts_S2048x1_S2048x1 : IVec S2048x1 32) broadcasts_S2048x1_S2048x128)
    (iota .tc S2048x128 32 [1] iota_S2048x128_d1_w32)) natLt_1_32)

/-- What an entry adds to its bin's confidence sum. -/
def conf (x : Vec F S2048x128 .f32) : FVec F S2048x128 .f32 := mulf (probs x) (valid x)

/-- What an entry adds to its bin's count of correct predictions. -/
def correct (x : Vec F S2048x128 .f32) (l : Vec F S2048x1 .i32) : FVec F S2048x128 .f32 := mulf (hot l) (valid x)

/-- 1 where the bin is `b`, else 0. -/
def maskOf (b : BitVec 32) (x : Vec F S2048x128 .f32) : FVec F S2048x128 .f32 :=
  sitofp .f32 (extui 32 (cmpi .eq (bins x) (broadcast S2048x128 b)) natLt_1_32)

/-- The sum down the 2048 rows, as one row of 128. -/
def colSum (v : FVec F S2048x128 .f32) : FVec F S1x128 .f32 :=
  shapeCast S1x128 (multiReduction .add [0] S128 v 0x00000000#32 reduces_S2048x128_S128 (.inl rfl) rfl) shapeCasts_S128_S1x128

/-- What the block adds to row `b` of each of the three tables: the count, the confidence sum, the correct count. -/
def addCount (b : BitVec 32) (x : Vec F S2048x128 .f32) : FVec F S1x128 .f32 := colSum (mulf (maskOf b x) (valid x))
def addConf (b : BitVec 32) (x : Vec F S2048x128 .f32) : FVec F S1x128 .f32 := colSum (mulf (maskOf b x) (conf x))
def addCorrect (b : BitVec 32) (x : Vec F S2048x128 .f32) (l : Vec F S2048x1 .i32) : FVec F S1x128 .f32 :=
  colSum (mulf (maskOf b x) (correct x l))

end Cert.KernelIdeal.Hist

end
-- ==== Proof.KStep.lean ====
/-
  One accumulation step of a 15 x 128 table, at any float instance, and the reading of the kernel's row stores.

  The kernel keeps three tables (count, confidence sum, correct count). At each block of 2048 samples it adds, to row b
  of a table, the column sums of  mask_b * weight  over the block. `stepWith add prev` is the table after such a step:
  entry (b, c) of `prev` plus lane c of `add b`. The kernel writes the step as 15 stores of one row each; `piece_with`
  says that the row a store writes is the step function restricted to the store's rectangle.
-/
import proofs.«110949_j635655159837_1_alg».proof.Proof.Vocab
import Idealize.ShloMosaic.Lib.Pipeline.Value

noncomputable section

namespace Cert.KernelIdeal.Hist

open Idealize.ShloMosaic Idealize.ShloMosaic.TcCoe Cert.KernelIdeal
open Cert.KernelIdeal.Facts₀ Cert.KernelIdeal.Facts

variable {F : FTy → Type} [FloatOps F] [Facts]

/-- The lane of a table entry, as an index of a one-row vector. -/
def laneOf (y : S15x128.Idx) : S1x128.Idx := fun a => match a with
  | ⟨0, _⟩ => (⟨0, Nat.one_pos⟩ : Fin 1)
  | ⟨1, _⟩ => (⟨(y 1).val, (y 1).isLt⟩ : Fin 128)

/-- The table of zeros the kernel starts from. -/
abbrev zeroTable : Vec F S15x128 .f32 := broadcast S15x128 (Scalar.ofBits .f32 0x00000000#32)

/-- One step: entry (b, c) gains lane c of what the block adds to row b. -/
def stepWith (add : BitVec 32 → FVec F S1x128 .f32) (prev : Vec F S15x128 .f32) : Vec F S15x128 .f32 :=
  fun y => FloatOps.addf (prev y) (add (BitVec.ofNat 32 (y 0).val) (laneOf y))

/-- One step of the count table, -/
def stepCount (x : Vec F S2048x128 .f32) (prev : Vec F S15x128 .f32) : Vec F S15x128 .f32 :=
  stepWith (fun b => addCount b x) prev
/-- of the confidence table, -/
def stepConf (x : Vec F S2048x128 .f32) (prev : Vec F S15x128 .f32) : Vec F S15x128 .f32 :=
  stepWith (fun b => addConf b x) prev
/-- of the table of correct predictions. -/
def stepCorrect (x : Vec F S2048x128 .f32) (l : Vec F S2048x1 .i32) (prev : Vec F S15x128 .f32) : Vec F S15x128 .f32 :=
  stepWith (fun b => addCorrect b x l) prev

/-- The row that the store of bin `b` writes — the row of `prev` it loaded plus the block's contribution — is the step
    function on the store's rectangle (row b, all 128 lanes). -/
theorem piece_with (add : BitVec 32 → FVec F S1x128 .f32) (b : ℕ)
    (inb : ∀ a, (![b, 0] : Fin 2 → Nat) a + S1x128.size a ≤ S15x128.size a)
    (prev : Vec F S15x128 .f32) (ld : Vec F S1x128 .f32)
    (hld : ∀ j : S1x128.Idx, ld j = prev ((Rect.unit (s := S15x128) ![b, 0] ![1, 128] inb).emb j))
    (j : S1x128.Idx) :
    shapeCast S1x128 (addf ld (add (BitVec.ofNat 32 b))) shapeCasts_S1x128_S1x128 j
      = stepWith add prev ((Rect.unit (s := S15x128) ![b, 0] ![1, 128] inb).emb j) := by
  rw [shapeCast_self]
  unfold stepWith
  show FloatOps.addf (ld j) (add _ j) = _
  rw [hld j]
  have hj0 : (j 0).val = 0 := by have h : (j 0).val < 1 := (j 0).isLt; omega
  have h0 : ((Rect.unit (s := S15x128) ![b, 0] ![1, 128] inb).emb j 0).val = b := by
    show b + 1 * (j 0).val = b
    omega
  have h1 : laneOf ((Rect.unit (s := S15x128) ![b, 0] ![1, 128] inb).emb j) = j := by
    funext a; apply Fin.ext
    match a with
    | ⟨0, _⟩ => exact hj0.symm
    | ⟨1, _⟩ => show 0 + 1 * (j 1).val = (j 1).val; omega
  rw [h0, h1]

end Cert.KernelIdeal.Hist

end
-- ==== Proof.KPiecesA.lean ====
/-
  What the body leaves in the three tables at the first point: it stores zeros over each table and then accumulates, so
  each table is one accumulation step from the table of zeros.
-/
import proofs.«110949_j635655159837_1_alg».proof.Proof.Gen.KernelIdeal.Frame
import proofs.«110949_j635655159837_1_alg».proof.Proof.KStep
import Idealize.ShloMosaic.Lib.Pipeline.Value
import Idealize.ShloMosaic.Lib.Pipeline.CanonAppend
import Idealize.ShloMosaic.Lib.Tactic

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)

variable {F : FTy → Type} [FloatOps F]

/-
  The body writes a table as one store of zeros over the whole table followed by 15 row stores. The load that precedes
  the store of row b comes after the store of zeros and after the stores of rows 0 .. b-1; those rows are disjoint from
  row b, so the load reads row b of the table of zeros. The 15 row stores, made last, cover the table and all restrict
  one step function, so the stores read back as that function; the store of zeros beneath them is never seen.
-/

theorem hzA : (![0, 0] : Fin 2 → Nat) = fun _ => 0 := funext fun a => by fin_cases a <;> rfl

/-- A load of row `b` made after a store of a lower row `k` reads what the stores before that one left:
    the two rows are disjoint. -/
theorem readCov_row_cons {sg : RefSig} {κ : Kind} {sp : Space} (v : View sg κ sp S15x128 .f32) (k b : ℕ)
    (inbk : ∀ a, (![k, 0] : Fin 2 → Nat) a + (![1, 128] : Fin 2 → Nat) a ≤ S15x128.size a)
    (inbb : ∀ a, (![b, 0] : Fin 2 → Nat) a + (![1, 128] : Fin 2 → Nat) a ≤ S15x128.size a)
    (w : S1x128.Idx → Elt F .f32) (L : List (View.Piece (Elt F) S15x128 .f32)) (h : k < b) :
    v.readCov ((⟨Rect.unit (s := S15x128) ![k, 0] ![1, 128] inbk, w⟩ : View.Piece (Elt F) S15x128 .f32) :: L)
        (Rect.unit (s := S15x128) ![b, 0] ![1, 128] inbb).toLoadRect
      = v.readCov L (Rect.unit (s := S15x128) ![b, 0] ![1, 128] inbb).toLoadRect :=
  View.readCov_cons_of_disjoint v _ L _
    (Rect.unit_disjoint (inb := inbk) (inb' := inbb) 0 (Or.inl (by show k + 1 ≤ b; omega)))

/-- A load of row `b` made after one store over the whole table reads that store's payload on the row. -/
theorem readCov_whole_row {sg : RefSig} {κ : Kind} {sp : Space} (v : View sg κ sp S15x128 .f32) (b : ℕ)
    (inbz : ∀ a, (![0, 0] : Fin 2 → Nat) a + (![15, 128] : Fin 2 → Nat) a ≤ S15x128.size a)
    (inbb : ∀ a, (![b, 0] : Fin 2 → Nat) a + (![1, 128] : Fin 2 → Nat) a ≤ S15x128.size a)
    (w : S15x128.Idx → Elt F .f32) :
    v.readCov [(⟨Rect.unit (s := S15x128) ![0, 0] ![15, 128] inbz, w⟩ : View.Piece (Elt F) S15x128 .f32)]
        (Rect.unit (s := S15x128) ![b, 0] ![1, 128] inbb).toLoadRect
      = View.ld w (Rect.unit (s := S15x128) ![b, 0] ![1, 128] inbb) := by
  rw [View.readCov_eq_canon', View.canon_unit_zero (S := S15x128) hzA]

/-- A list of stores read as its first `n` stores followed by the rest. -/
theorem canon_take_drop (n : ℕ) (L : List (View.Piece (Elt F) S15x128 .f32)) (y : S15x128.Idx) :
    View.canon L y = View.canon (L.take n ++ L.drop n) y := by rw [List.take_append_drop]

/-- The first point leaves the count table one step from the table of zeros, -/
theorem sout_A_0 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : cond0_0 i) (hc1 : ¬cond0_1 i)
    (x0 : Vec F S2048x128 .f32) (x1 : Vec F S2048x1 .i32) :
    sout0_A_0 c i arg1 harg1 arg2 harg2 arg3 harg3 arg4 harg4 arg5 harg5 arg6 harg6 arg7 harg7 arg8 harg8 hc0 hc1 x0 x1 = Hist.stepCount x0 Hist.zeroTable := by
  funext y
  unfold sout0_A_0
  rw [View.read_writes_eq_canon _ _ _ (scover0_A_0 c i arg1 harg1 arg2 harg2 arg3 harg3 arg4 harg4 arg5 harg5 arg6 harg6 arg7 harg7 arg8 harg8 hc0 hc1 x0 x1)]
  unfold kernelRun0_A
  dsimp only
  sl_unfold_words
  -- every row load reads the table of zeros: the rows stored before it are other rows
  simp (disch := omega) only [readCov_row_cons, readCov_whole_row]
  -- the 15 row stores come first and cover the table; the store of zeros after them is never read back
  refine (canon_take_drop 15 _ y).trans ?_
  refine View.canon_append_of_pieces (Hist.stepCount x0 Hist.zeroTable) _ _ ?_ y ?_
  · intro p hp
    simp only [List.take_succ_cons, List.take_zero, List.mem_cons, List.not_mem_nil, or_false] at hp
    rcases hp with rfl | rfl | rfl | rfl | rfl | rfl | rfl | rfl | rfl | rfl | rfl | rfl | rfl | rfl | rfl
    all_goals
      intro j
      simp only [View.readAt_eq_ld, harg1.read_unread, View.ld_unit_zero (S := S2048x128) hzA]
      exact Hist.piece_with (fun b => Hist.addCount b x0) _ _ Hist.zeroTable _ (fun _ => rfl) j
  · exact View.cover_of_tiledL (s := S15x128) _ S1x128.size (by sl_kernel_rfl) y

/-- the confidence table likewise, -/
theorem sout_A_1 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : cond0_0 i) (hc1 : ¬cond0_1 i)
    (x0 : Vec F S2048x128 .f32) (x1 : Vec F S2048x1 .i32) :
    sout0_A_1 c i arg1 harg1 arg2 harg2 arg3 harg3 arg4 harg4 arg5 harg5 arg6 harg6 arg7 harg7 arg8 harg8 hc0 hc1 x0 x1 = Hist.stepConf x0 Hist.zeroTable := by
  funext y
  unfold sout0_A_1
  rw [View.read_writes_eq_canon _ _ _ (scover0_A_1 c i arg1 harg1 arg2 harg2 arg3 harg3 arg4 harg4 arg5 harg5 arg6 harg6 arg7 harg7 arg8 harg8 hc0 hc1 x0 x1)]
  unfold kernelRun0_A
  dsimp only
  sl_unfold_words
  -- every row load reads the table of zeros: the rows stored before it are other rows
  simp (disch := omega) only [readCov_row_cons, readCov_whole_row]
  -- the 15 row stores come first and cover the table; the store of zeros after them is never read back
  refine (canon_take_drop 15 _ y).trans ?_
  refine View.canon_append_of_pieces (Hist.stepConf x0 Hist.zeroTable) _ _ ?_ y ?_
  · intro p hp
    simp only [List.take_succ_cons, List.take_zero, List.mem_cons, List.not_mem_nil, or_false] at hp
    rcases hp with rfl | rfl | rfl | rfl | rfl | rfl | rfl | rfl | rfl | rfl | rfl | rfl | rfl | rfl | rfl
    all_goals
      intro j
      simp only [View.readAt_eq_ld, harg1.read_unread, View.ld_unit_zero (S := S2048x128) hzA]
      exact Hist.piece_with (fun b => Hist.addConf b x0) _ _ Hist.zeroTable _ (fun _ => rfl) j
  · exact View.cover_of_tiledL (s := S15x128) _ S1x128.size (by sl_kernel_rfl) y

/-- and the table of correct predictions, whose addends also read the block's labels. -/
theorem sout_A_2 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : cond0_0 i) (hc1 : ¬cond0_1 i)
    (x0 : Vec F S2048x128 .f32) (x1 : Vec F S2048x1 .i32) :
    sout0_A_2 c i arg1 harg1 arg2 harg2 arg3 harg3 arg4 harg4 arg5 harg5 arg6 harg6 arg7 harg7 arg8 harg8 hc0 hc1 x0 x1 = Hist.stepCorrect x0 x1 Hist.zeroTable := by
  funext y
  unfold sout0_A_2
  rw [View.read_writes_eq_canon _ _ _ (scover0_A_2 c i arg1 harg1 arg2 harg2 arg3 harg3 arg4 harg4 arg5 harg5 arg6 harg6 arg7 harg7 arg8 harg8 hc0 hc1 x0 x1)]
  unfold kernelRun0_A
  dsimp only
  sl_unfold_words
  -- every row load reads the table of zeros: the rows stored before it are other rows
  simp (disch := omega) only [readCov_row_cons, readCov_whole_row]
  -- the 15 row stores come first and cover the table; the store of zeros after them is never read back
  refine (canon_take_drop 15 _ y).trans ?_
  refine View.canon_append_of_pieces (Hist.stepCorrect x0 x1 Hist.zeroTable) _ _ ?_ y ?_
  · intro p hp
    simp only [List.take_succ_cons, List.take_zero, List.mem_cons, List.not_mem_nil, or_false] at hp
    rcases hp with rfl | rfl | rfl | rfl | rfl | rfl | rfl | rfl | rfl | rfl | rfl | rfl | rfl | rfl | rfl
    all_goals
      intro j
      simp only [View.readAt_eq_ld, harg1.read_unread, harg2.read_unread, View.ld_unit_zero (S := S2048x1) hzA, View.ld_unit_zero (S := S2048x128) hzA]
      exact Hist.piece_with (fun b => Hist.addCorrect b x0 x1) _ _ Hist.zeroTable _ (fun _ => rfl) j
  · exact View.cover_of_tiledL (s := S15x128) _ S1x128.size (by sl_kernel_rfl) y

end Cert.KernelIdeal.Gen

end
-- ==== Proof.KPiecesBC.lean ====
/-
  What the body leaves in the three tables at a point that is not the first: each table is the one the point before
  left, advanced by one accumulation step on the point's block. At the last point the three outputs receive copies of
  the tables. The body writes a table as 15 row stores; all of them restrict one step function, so the stores read back
  as that function.
-/
import proofs.«110949_j635655159837_1_alg».proof.Proof.Gen.KernelIdeal.Frame
import proofs.«110949_j635655159837_1_alg».proof.Proof.KStep
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl

/-- A middle point advances the count table by one step. -/
theorem sout_B_0 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : ¬cond0_0 i) (hc1 : ¬cond0_1 i)
    (x0 : Vec F S2048x128 .f32) (x1 : Vec F S2048x1 .i32) (xs0 xs1 xs2 : Vec F S15x128 .f32) :
    sout0_B_0 c i arg1 harg1 arg2 harg2 arg3 harg3 arg4 harg4 arg5 harg5 arg6 harg6 arg7 harg7 arg8 harg8 hc0 hc1 x0 x1 xs0 xs1 xs2 = Hist.stepCount x0 xs0 := by
  funext y
  have hcov := scover0_B_0 c i arg1 harg1 arg2 harg2 arg3 harg3 arg4 harg4 arg5 harg5 arg6 harg6 arg7 harg7 arg8 harg8 hc0 hc1 x0 x1 xs0 xs1 xs2 y
  unfold sout0_B_0
  rw [View.read_writes_eq_canon _ _ _ (scover0_B_0 c i arg1 harg1 arg2 harg2 arg3 harg3 arg4 harg4 arg5 harg5 arg6 harg6 arg7 harg7 arg8 harg8 hc0 hc1 x0 x1 xs0 xs1 xs2)]
  refine View.canon_apply_of_pieces (Hist.stepCount x0 xs0) _ ?_ y hcov
  unfold kernelRun0_B
  dsimp only
  sl_unfold_words
  intro p hp
  simp only [List.mem_cons, List.not_mem_nil, or_false] at hp
  rcases hp with rfl | rfl | rfl | rfl | rfl | rfl | rfl | rfl | rfl | rfl | rfl | rfl | rfl | rfl | rfl
  all_goals
    intro j
    simp only [View.readAt_eq_ld, harg1.read_unread, harg6.read_unread, View.ld_unit_zero (S := S2048x128) hz2]
    exact Hist.piece_with (fun b => Hist.addCount b x0) _ _ xs0 _ (fun _ => rfl) j

/-- A middle point advances the confidence table by one step. -/
theorem sout_B_1 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : ¬cond0_0 i) (hc1 : ¬cond0_1 i)
    (x0 : Vec F S2048x128 .f32) (x1 : Vec F S2048x1 .i32) (xs0 xs1 xs2 : Vec F S15x128 .f32) :
    sout0_B_1 c i arg1 harg1 arg2 harg2 arg3 harg3 arg4 harg4 arg5 harg5 arg6 harg6 arg7 harg7 arg8 harg8 hc0 hc1 x0 x1 xs0 xs1 xs2 = Hist.stepConf x0 xs1 := by
  funext y
  have hcov := scover0_B_1 c i arg1 harg1 arg2 harg2 arg3 harg3 arg4 harg4 arg5 harg5 arg6 harg6 arg7 harg7 arg8 harg8 hc0 hc1 x0 x1 xs0 xs1 xs2 y
  unfold sout0_B_1
  rw [View.read_writes_eq_canon _ _ _ (scover0_B_1 c i arg1 harg1 arg2 harg2 arg3 harg3 arg4 harg4 arg5 harg5 arg6 harg6 arg7 harg7 arg8 harg8 hc0 hc1 x0 x1 xs0 xs1 xs2)]
  refine View.canon_apply_of_pieces (Hist.stepConf x0 xs1) _ ?_ y hcov
  unfold kernelRun0_B
  dsimp only
  sl_unfold_words
  intro p hp
  simp only [List.mem_cons, List.not_mem_nil, or_false] at hp
  rcases hp with rfl | rfl | rfl | rfl | rfl | rfl | rfl | rfl | rfl | rfl | rfl | rfl | rfl | rfl | rfl
  all_goals
    intro j
    simp only [View.readAt_eq_ld, harg1.read_unread, harg7.read_unread, View.ld_unit_zero (S := S2048x128) hz2]
    exact Hist.piece_with (fun b => Hist.addConf b x0) _ _ xs1 _ (fun _ => rfl) j

/-- A middle point advances the table of correct predictions by one step. -/
theorem sout_B_2 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : ¬cond0_0 i) (hc1 : ¬cond0_1 i)
    (x0 : Vec F S2048x128 .f32) (x1 : Vec F S2048x1 .i32) (xs0 xs1 xs2 : Vec F S15x128 .f32) :
    sout0_B_2 c i arg1 harg1 arg2 harg2 arg3 harg3 arg4 harg4 arg5 harg5 arg6 harg6 arg7 harg7 arg8 harg8 hc0 hc1 x0 x1 xs0 xs1 xs2 = Hist.stepCorrect x0 x1 xs2 := by
  funext y
  have hcov := scover0_B_2 c i arg1 harg1 arg2 harg2 arg3 harg3 arg4 harg4 arg5 harg5 arg6 harg6 arg7 harg7 arg8 harg8 hc0 hc1 x0 x1 xs0 xs1 xs2 y
  unfold sout0_B_2
  rw [View.read_writes_eq_canon _ _ _ (scover0_B_2 c i arg1 harg1 arg2 harg2 arg3 harg3 arg4 harg4 arg5 harg5 arg6 harg6 arg7 harg7 arg8 harg8 hc0 hc1 x0 x1 xs0 xs1 xs2)]
  refine View.canon_apply_of_pieces (Hist.stepCorrect x0 x1 xs2) _ ?_ y hcov
  unfold kernelRun0_B
  dsimp only
  sl_unfold_words
  intro p hp
  simp only [List.mem_cons, List.not_mem_nil, or_false] at hp
  rcases hp with rfl | rfl | rfl | rfl | rfl | rfl | rfl | rfl | rfl | rfl | rfl | rfl | rfl | rfl | rfl
  all_goals
    intro j
    simp only [View.readAt_eq_ld, harg1.read_unread, harg2.read_unread, harg8.read_unread, View.ld_unit_zero (S := S2048x128) hz2, View.ld_unit_zero (S := S2048x1) hz2]
    exact Hist.piece_with (fun b => Hist.addCorrect b x0 x1) _ _ xs2 _ (fun _ => rfl) j

/-- At the last point the 15 row stores into the count table read back as one step of it. -/
theorem canon_C_0 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : ¬cond0_0 i) (hc1 : cond0_1 i)
    (x0 : Vec F S2048x128 .f32) (x1 : Vec F S2048x1 .i32) (xs0 xs1 xs2 : Vec F S15x128 .f32) :
    View.canon (kernelRun0_C c i arg1 harg1 arg2 harg2 arg3 harg3 arg4 harg4 arg5 harg5 arg6 harg6 arg7 harg7 arg8 harg8 hc0 hc1 x0 x1 xs0 xs1 xs2).2.2.2.1 = Hist.stepCount x0 xs0 := by
  funext y
  refine View.canon_apply_of_pieces (Hist.stepCount x0 xs0) _ ?_ y (scover0_C_0 c i arg1 harg1 arg2 harg2 arg3 harg3 arg4 harg4 arg5 harg5 arg6 harg6 arg7 harg7 arg8 harg8 hc0 hc1 x0 x1 xs0 xs1 xs2 y)
  unfold kernelRun0_C
  dsimp only
  sl_unfold_words
  intro p hp
  simp only [List.mem_cons, List.not_mem_nil, or_false] at hp
  rcases hp with rfl | rfl | rfl | rfl | rfl | rfl | rfl | rfl | rfl | rfl | rfl | rfl | rfl | rfl | rfl
  all_goals
    intro j
    simp only [View.readAt_eq_ld, harg1.read_unread, harg6.read_unread, View.ld_unit_zero (S := S2048x128) hz2]
    exact Hist.piece_with (fun b => Hist.addCount b x0) _ _ xs0 _ (fun _ => rfl) j

/-- At the last point the 15 row stores into the confidence table read back as one step of it. -/
theorem canon_C_1 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : ¬cond0_0 i) (hc1 : cond0_1 i)
    (x0 : Vec F S2048x128 .f32) (x1 : Vec F S2048x1 .i32) (xs0 xs1 xs2 : Vec F S15x128 .f32) :
    View.canon (kernelRun0_C c i arg1 harg1 arg2 harg2 arg3 harg3 arg4 harg4 arg5 harg5 arg6 harg6 arg7 harg7 arg8 harg8 hc0 hc1 x0 x1 xs0 xs1 xs2).2.2.2.2.1 = Hist.stepConf x0 xs1 := by
  funext y
  refine View.canon_apply_of_pieces (Hist.stepConf x0 xs1) _ ?_ y (scover0_C_1 c i arg1 harg1 arg2 harg2 arg3 harg3 arg4 harg4 arg5 harg5 arg6 harg6 arg7 harg7 arg8 harg8 hc0 hc1 x0 x1 xs0 xs1 xs2 y)
  unfold kernelRun0_C
  dsimp only
  sl_unfold_words
  intro p hp
  simp only [List.mem_cons, List.not_mem_nil, or_false] at hp
  rcases hp with rfl | rfl | rfl | rfl | rfl | rfl | rfl | rfl | rfl | rfl | rfl | rfl | rfl | rfl | rfl
  all_goals
    intro j
    simp only [View.readAt_eq_ld, harg1.read_unread, harg7.read_unread, View.ld_unit_zero (S := S2048x128) hz2]
    exact Hist.piece_with (fun b => Hist.addConf b x0) _ _ xs1 _ (fun _ => rfl) j

/-- At the last point the 15 row stores into the table of correct predictions read back as one step of it. -/
theorem canon_C_2 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : ¬cond0_0 i) (hc1 : cond0_1 i)
    (x0 : Vec F S2048x128 .f32) (x1 : Vec F S2048x1 .i32) (xs0 xs1 xs2 : Vec F S15x128 .f32) :
    View.canon (kernelRun0_C c i arg1 harg1 arg2 harg2 arg3 harg3 arg4 harg4 arg5 harg5 arg6 harg6 arg7 harg7 arg8 harg8 hc0 hc1 x0 x1 xs0 xs1 xs2).2.2.2.2.2.1 = Hist.stepCorrect x0 x1 xs2 := by
  funext y
  refine View.canon_apply_of_pieces (Hist.stepCorrect x0 x1 xs2) _ ?_ y (scover0_C_2 c i arg1 harg1 arg2 harg2 arg3 harg3 arg4 harg4 arg5 harg5 arg6 harg6 arg7 harg7 arg8 harg8 hc0 hc1 x0 x1 xs0 xs1 xs2 y)
  unfold kernelRun0_C
  dsimp only
  sl_unfold_words
  intro p hp
  simp only [List.mem_cons, List.not_mem_nil, or_false] at hp
  rcases hp with rfl | rfl | rfl | rfl | rfl | rfl | rfl | rfl | rfl | rfl | rfl | rfl | rfl | rfl | rfl
  all_goals
    intro j
    simp only [View.readAt_eq_ld, harg1.read_unread, harg2.read_unread, harg8.read_unread, View.ld_unit_zero (S := S2048x128) hz2, View.ld_unit_zero (S := S2048x1) hz2]
    exact Hist.piece_with (fun b => Hist.addCorrect b x0 x1) _ _ xs2 _ (fun _ => rfl) j

/-- The last point advances the three tables in the same way, -/
theorem sout_C_0 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : ¬cond0_0 i) (hc1 : cond0_1 i)
    (x0 : Vec F S2048x128 .f32) (x1 : Vec F S2048x1 .i32) (xs0 xs1 xs2 : Vec F S15x128 .f32) :
    sout0_C_0 c i arg1 harg1 arg2 harg2 arg3 harg3 arg4 harg4 arg5 harg5 arg6 harg6 arg7 harg7 arg8 harg8 hc0 hc1 x0 x1 xs0 xs1 xs2 = Hist.stepCount x0 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 xs0 xs1 xs2)]
  exact canon_C_0 c i arg1 harg1 arg2 harg2 arg3 harg3 arg4 harg4 arg5 harg5 arg6 harg6 arg7 harg7 arg8 harg8 hc0 hc1 x0 x1 xs0 xs1 xs2
theorem sout_C_1 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : ¬cond0_0 i) (hc1 : cond0_1 i)
    (x0 : Vec F S2048x128 .f32) (x1 : Vec F S2048x1 .i32) (xs0 xs1 xs2 : Vec F S15x128 .f32) :
    sout0_C_1 c i arg1 harg1 arg2 harg2 arg3 harg3 arg4 harg4 arg5 harg5 arg6 harg6 arg7 harg7 arg8 harg8 hc0 hc1 x0 x1 xs0 xs1 xs2 = Hist.stepConf x0 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 xs0 xs1 xs2)]
  exact canon_C_1 c i arg1 harg1 arg2 harg2 arg3 harg3 arg4 harg4 arg5 harg5 arg6 harg6 arg7 harg7 arg8 harg8 hc0 hc1 x0 x1 xs0 xs1 xs2
theorem sout_C_2 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : ¬cond0_0 i) (hc1 : cond0_1 i)
    (x0 : Vec F S2048x128 .f32) (x1 : Vec F S2048x1 .i32) (xs0 xs1 xs2 : Vec F S15x128 .f32) :
    sout0_C_2 c i arg1 harg1 arg2 harg2 arg3 harg3 arg4 harg4 arg5 harg5 arg6 harg6 arg7 harg7 arg8 harg8 hc0 hc1 x0 x1 xs0 xs1 xs2 = Hist.stepCorrect x0 x1 xs2 := by
  unfold sout0_C_2
  rw [View.read_writes_eq_canon _ _ _ (scover0_C_2 c i arg1 harg1 arg2 harg2 arg3 harg3 arg4 harg4 arg5 harg5 arg6 harg6 arg7 harg7 arg8 harg8 hc0 hc1 x0 x1 xs0 xs1 xs2)]
  exact canon_C_2 c i arg1 harg1 arg2 harg2 arg3 harg3 arg4 harg4 arg5 harg5 arg6 harg6 arg7 harg7 arg8 harg8 hc0 hc1 x0 x1 xs0 xs1 xs2

/-- and copies each advanced table into its output. -/
theorem out_C_2 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : ¬cond0_0 i) (hc1 : cond0_1 i)
    (x0 : Vec F S2048x128 .f32) (x1 : Vec F S2048x1 .i32) (xs0 xs1 xs2 : Vec F S15x128 .f32) :
    out0_C_2 c i arg1 harg1 arg2 harg2 arg3 harg3 arg4 harg4 arg5 harg5 arg6 harg6 arg7 harg7 arg8 harg8 hc0 hc1 x0 x1 xs0 xs1 xs2 = Hist.stepCount x0 xs0 := by
  unfold out0_C_2
  rw [View.read_writes_eq_canon _ _ _ (cover0_C_2 c i arg1 harg1 arg2 harg2 arg3 harg3 arg4 harg4 arg5 harg5 arg6 harg6 arg7 harg7 arg8 harg8 hc0 hc1 x0 x1 xs0 xs1 xs2)]
  -- the output's one piece is a store through the whole rectangle of a load of the whole table after its 15 row stores
  have hL : (kernelRun0_C c i arg1 harg1 arg2 harg2 arg3 harg3 arg4 harg4 arg5 harg5 arg6 harg6 arg7 harg7 arg8 harg8 hc0 hc1 x0 x1 xs0 xs1 xs2).1
      = [⟨Rect.unit ![0, 0] ![15, 128] inb_S15x128_S15x128_0_0,
          arg6.view.readCov (kernelRun0_C c i arg1 harg1 arg2 harg2 arg3 harg3 arg4 harg4 arg5 harg5 arg6 harg6 arg7 harg7 arg8 harg8 hc0 hc1 x0 x1 xs0 xs1 xs2).2.2.2.1
            (Rect.unit ![0, 0] ![15, 128] inb_S15x128_S15x128_0_0).toLoadRect⟩] := rfl
  rw [hL, View.canon_unit_zero hz2, View.readCov_eq_canon', canon_C_0 c i arg1 harg1 arg2 harg2 arg3 harg3 arg4 harg4 arg5 harg5 arg6 harg6 arg7 harg7 arg8 harg8 hc0 hc1 x0 x1 xs0 xs1 xs2]
  exact View.ld_unit_zero (S := S15x128) hz2 _ _
theorem out_C_3 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : ¬cond0_0 i) (hc1 : cond0_1 i)
    (x0 : Vec F S2048x128 .f32) (x1 : Vec F S2048x1 .i32) (xs0 xs1 xs2 : Vec F S15x128 .f32) :
    out0_C_3 c i arg1 harg1 arg2 harg2 arg3 harg3 arg4 harg4 arg5 harg5 arg6 harg6 arg7 harg7 arg8 harg8 hc0 hc1 x0 x1 xs0 xs1 xs2 = Hist.stepConf x0 xs1 := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 xs0 xs1 xs2)]
  -- the output's one piece is a store through the whole rectangle of a load of the whole table after its 15 row stores
  have hL : (kernelRun0_C c i arg1 harg1 arg2 harg2 arg3 harg3 arg4 harg4 arg5 harg5 arg6 harg6 arg7 harg7 arg8 harg8 hc0 hc1 x0 x1 xs0 xs1 xs2).2.1
      = [⟨Rect.unit ![0, 0] ![15, 128] inb_S15x128_S15x128_0_0,
          arg7.view.readCov (kernelRun0_C c i arg1 harg1 arg2 harg2 arg3 harg3 arg4 harg4 arg5 harg5 arg6 harg6 arg7 harg7 arg8 harg8 hc0 hc1 x0 x1 xs0 xs1 xs2).2.2.2.2.1
            (Rect.unit ![0, 0] ![15, 128] inb_S15x128_S15x128_0_0).toLoadRect⟩] := rfl
  rw [hL, View.canon_unit_zero hz2, View.readCov_eq_canon', canon_C_1 c i arg1 harg1 arg2 harg2 arg3 harg3 arg4 harg4 arg5 harg5 arg6 harg6 arg7 harg7 arg8 harg8 hc0 hc1 x0 x1 xs0 xs1 xs2]
  exact View.ld_unit_zero (S := S15x128) hz2 _ _
theorem out_C_4 (c : Dev nD) (i : grid0.Coords) (arg1 : Memref sig .tc .vmem S2048x128 .f32) (harg1 : arg1.IsWhole) (arg2 : Memref sig .tc .vmem S2048x1 .i32) (harg2 : arg2.IsWhole) (arg3 : Memref sig .tc .vmem S15x128 .f32) (harg3 : arg3.IsWhole) (arg4 : Memref sig .tc .vmem S15x128 .f32) (harg4 : arg4.IsWhole) (arg5 : Memref sig .tc .vmem S15x128 .f32) (harg5 : arg5.IsWhole) (arg6 : Memref sig .tc .vmem S15x128 .f32) (harg6 : arg6.IsWhole) (arg7 : Memref sig .tc .vmem S15x128 .f32) (harg7 : arg7.IsWhole) (arg8 : Memref sig .tc .vmem S15x128 .f32) (harg8 : arg8.IsWhole) (hc0 : ¬cond0_0 i) (hc1 : cond0_1 i)
    (x0 : Vec F S2048x128 .f32) (x1 : Vec F S2048x1 .i32) (xs0 xs1 xs2 : Vec F S15x128 .f32) :
    out0_C_4 c i arg1 harg1 arg2 harg2 arg3 harg3 arg4 harg4 arg5 harg5 arg6 harg6 arg7 harg7 arg8 harg8 hc0 hc1 x0 x1 xs0 xs1 xs2 = Hist.stepCorrect x0 x1 xs2 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 xs0 xs1 xs2)]
  -- the output's one piece is a store through the whole rectangle of a load of the whole table after its 15 row stores
  have hL : (kernelRun0_C c i arg1 harg1 arg2 harg2 arg3 harg3 arg4 harg4 arg5 harg5 arg6 harg6 arg7 harg7 arg8 harg8 hc0 hc1 x0 x1 xs0 xs1 xs2).2.2.1
      = [⟨Rect.unit ![0, 0] ![15, 128] inb_S15x128_S15x128_0_0,
          arg8.view.readCov (kernelRun0_C c i arg1 harg1 arg2 harg2 arg3 harg3 arg4 harg4 arg5 harg5 arg6 harg6 arg7 harg7 arg8 harg8 hc0 hc1 x0 x1 xs0 xs1 xs2).2.2.2.2.2.1
            (Rect.unit ![0, 0] ![15, 128] inb_S15x128_S15x128_0_0).toLoadRect⟩] := rfl
  rw [hL, View.canon_unit_zero hz2, View.readCov_eq_canon', canon_C_2 c i arg1 harg1 arg2 harg2 arg3 harg3 arg4 harg4 arg5 harg5 arg6 harg6 arg7 harg7 arg8 harg8 hc0 hc1 x0 x1 xs0 xs1 xs2]
  exact View.ld_unit_zero (S := S15x128) hz2 _ _

end Cert.KernelIdeal.Gen

end
-- ==== Proof.KGrid.lean ====
/-
  The three tables over the grid. After point n each table is the table of zeros advanced by one step per block
  0 .. n; the last point (127) writes the tables to the three output arrays, and no other point writes them, so the
  arrays end holding the tables after point 127.
-/
import proofs.«110949_j635655159837_1_alg».proof.Proof.Gen.KernelIdeal.Frame
import proofs.«110949_j635655159837_1_alg».proof.Proof.KStep
import proofs.«110949_j635655159837_1_alg».proof.Proof.KPiecesA
import proofs.«110949_j635655159837_1_alg».proof.Proof.KPiecesBC
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)

variable {F : FTy → Type} [FloatOps F]

variable (m : (ℓ : Loc nD τ sig) → Buf (Elt F) ℓ) (ρ : Dev nD → PrngReg)

/-- Block t of the logits, and of the labels (as a column). -/
abbrev xblk (c : Dev nD) (t : Fin cfg0.N) : Vec F S2048x128 .f32 := iblk m c 0 t
abbrev lblk (c : Dev nD) (t : Fin cfg0.N) : Vec F S2048x1 .i32 := iblk m c 1 t

/-- The count table after point n. -/
def countAt (c : Dev nD) : (n : ℕ) → n < cfg0.N → Vec F S15x128 .f32
  | 0, h => Hist.stepCount (xblk m c ⟨0, h⟩) Hist.zeroTable
  | n + 1, h => Hist.stepCount (xblk m c ⟨n + 1, h⟩) (countAt c n (Nat.lt_of_succ_lt h))
/-- The confidence table after point n. -/
def confAt (c : Dev nD) : (n : ℕ) → n < cfg0.N → Vec F S15x128 .f32
  | 0, h => Hist.stepConf (xblk m c ⟨0, h⟩) Hist.zeroTable
  | n + 1, h => Hist.stepConf (xblk m c ⟨n + 1, h⟩) (confAt c n (Nat.lt_of_succ_lt h))
/-- The table of correct predictions after point n. -/
def correctAt (c : Dev nD) : (n : ℕ) → n < cfg0.N → Vec F S15x128 .f32
  | 0, h => Hist.stepCorrect (xblk m c ⟨0, h⟩) (lblk m c ⟨0, h⟩) Hist.zeroTable
  | n + 1, h => Hist.stepCorrect (xblk m c ⟨n + 1, h⟩) (lblk m c ⟨n + 1, h⟩) (correctAt c n (Nat.lt_of_succ_lt h))

theorem lastPt : 127 < cfg0.N := by rw [show cfg0.N = 128 from N_0]; decide

/-- The three tables after the last point, as contents of the three output arrays. -/
abbrev countFinal (c : Dev nD) : Buf (Elt F) ((c : Thread nD τ).loc main_v1_0) := countAt m c 127 lastPt
abbrev confFinal (c : Dev nD) : Buf (Elt F) ((c : Thread nD τ).loc main_v1_1) := confAt m c 127 lastPt
abbrev correctFinal (c : Dev nD) : Buf (Elt F) ((c : Thread nD τ).loc main_v1_2) := correctAt m c 127 lastPt

/-- The defining equations of the three tables. -/
theorem countAt_succ (c : Dev nD) (n : ℕ) (h : n + 1 < cfg0.N) :
    countAt m c (n + 1) h = Hist.stepCount (xblk m c ⟨n + 1, h⟩) (countAt m c n (Nat.lt_of_succ_lt h)) := rfl
theorem confAt_succ (c : Dev nD) (n : ℕ) (h : n + 1 < cfg0.N) :
    confAt m c (n + 1) h = Hist.stepConf (xblk m c ⟨n + 1, h⟩) (confAt m c n (Nat.lt_of_succ_lt h)) := rfl
theorem correctAt_succ (c : Dev nD) (n : ℕ) (h : n + 1 < cfg0.N) :
    correctAt m c (n + 1) h
      = Hist.stepCorrect (xblk m c ⟨n + 1, h⟩) (lblk m c ⟨n + 1, h⟩) (correctAt m c n (Nat.lt_of_succ_lt h)) := rfl

/-- What the point before `t` left (the six components: three staging contents, three tables). -/
abbrev prevAt (c : Dev nD) (t : Fin cfg0.N) :=
  outsAt0 m c (t.val - 1) (Nat.lt_of_le_of_lt (Nat.sub_le _ _) t.isLt)

/-- At the first point each carried table is one step from the table of zeros. -/
theorem tables_A (c : Dev nD) (t : Fin cfg0.N) (h0 : t.val % 128 = 0) (h1 : ¬t.val % 128 = 127) :
    (outsAt0 m c t.val t.isLt).2.2.2.1 = Hist.stepCount (xblk m c t) Hist.zeroTable
    ∧ (outsAt0 m c t.val t.isLt).2.2.2.2.1 = Hist.stepConf (xblk m c t) Hist.zeroTable
    ∧ (outsAt0 m c t.val t.isLt).2.2.2.2.2 = Hist.stepCorrect (xblk m c t) (lblk m c t) Hist.zeroTable := by
  rw [outsAt0_A m c t h0 h1]
  dsimp only
  exact ⟨sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    sout_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)⟩

/-- At a middle point each carried table is the one the point before left, advanced by one step. -/
theorem tables_B (c : Dev nD) (t : Fin cfg0.N) (h0 : ¬t.val % 128 = 0) (h1 : ¬t.val % 128 = 127) :
    (outsAt0 m c t.val t.isLt).2.2.2.1 = Hist.stepCount (xblk m c t) (prevAt m c t).2.2.2.1
    ∧ (outsAt0 m c t.val t.isLt).2.2.2.2.1 = Hist.stepConf (xblk m c t) (prevAt m c t).2.2.2.2.1
    ∧ (outsAt0 m c t.val t.isLt).2.2.2.2.2 = Hist.stepCorrect (xblk m c t) (lblk m c t) (prevAt m c t).2.2.2.2.2 := by
  rw [outsAt0_B m c t h0 h1]
  dsimp only
  exact ⟨sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    sout_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    sout_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

/-- At the last point the same holds of the carried tables, and each output's staging buffer receives the advanced
    table. -/
theorem tables_C (c : Dev nD) (t : Fin cfg0.N) (h0 : ¬t.val % 128 = 0) (h1 : t.val % 128 = 127) :
    ((outsAt0 m c t.val t.isLt).2.2.2.1 = Hist.stepCount (xblk m c t) (prevAt m c t).2.2.2.1
      ∧ (outsAt0 m c t.val t.isLt).2.2.2.2.1 = Hist.stepConf (xblk m c t) (prevAt m c t).2.2.2.2.1
      ∧ (outsAt0 m c t.val t.isLt).2.2.2.2.2 = Hist.stepCorrect (xblk m c t) (lblk m c t) (prevAt m c t).2.2.2.2.2)
    ∧ ((outsAt0 m c t.val t.isLt).1 = Hist.stepCount (xblk m c t) (prevAt m c t).2.2.2.1
      ∧ (outsAt0 m c t.val t.isLt).2.1 = Hist.stepConf (xblk m c t) (prevAt m c t).2.2.2.2.1
      ∧ (outsAt0 m c t.val t.isLt).2.2.1 = Hist.stepCorrect (xblk m c t) (lblk m c t) (prevAt m c t).2.2.2.2.2) := by
  rw [outsAt0_C m c t h0 h1]
  dsimp only
  exact ⟨⟨sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    sout_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    sout_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩,
    out_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    out_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
    out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

/-- THE INVARIANT: after every point the three carried tables are `countAt`, `confAt`, `correctAt` — by induction on
    the point, the first point resetting and every later one advancing by a step. -/
theorem tables_eq (c : Dev nD) : ∀ (n : ℕ) (h : n < cfg0.N),
    (outsAt0 m c n h).2.2.2.1 = countAt m c n h
    ∧ (outsAt0 m c n h).2.2.2.2.1 = confAt m c n h
    ∧ (outsAt0 m c n h).2.2.2.2.2 = correctAt m c n h
  | 0, h => tables_A m c ⟨0, h⟩ (Nat.zero_mod _) (show ¬(0 % 128 = 127) from by decide)
  | n + 1, h => by
    have hN : n + 1 < 128 := lt_of_lt_of_eq h (show cfg0.N = 128 from N_0)
    have h0 : ¬(⟨n + 1, h⟩ : Fin cfg0.N).val % 128 = 0 := by dsimp only; omega
    obtain ⟨e0, e1, e2⟩ := tables_eq c n (Nat.lt_of_succ_lt h)
    have step : (outsAt0 m c (n + 1) h).2.2.2.1 = Hist.stepCount (xblk m c ⟨n + 1, h⟩) (outsAt0 m c n (Nat.lt_of_succ_lt h)).2.2.2.1
        ∧ (outsAt0 m c (n + 1) h).2.2.2.2.1 = Hist.stepConf (xblk m c ⟨n + 1, h⟩) (outsAt0 m c n (Nat.lt_of_succ_lt h)).2.2.2.2.1
        ∧ (outsAt0 m c (n + 1) h).2.2.2.2.2
          = Hist.stepCorrect (xblk m c ⟨n + 1, h⟩) (lblk m c ⟨n + 1, h⟩) (outsAt0 m c n (Nat.lt_of_succ_lt h)).2.2.2.2.2 := by
      by_cases h1 : (⟨n + 1, h⟩ : Fin cfg0.N).val % 128 = 127
      · exact (tables_C m c ⟨n + 1, h⟩ h0 h1).1
      · exact tables_B m c ⟨n + 1, h⟩ h0 h1
    obtain ⟨s0, s1, s2⟩ := step
    rw [e0] at s0
    rw [e1] at s1
    rw [e2] at s2
    exact ⟨s0.trans (countAt_succ m c n h).symm, s1.trans (confAt_succ m c n h).symm,
      s2.trans (correctAt_succ m c n h).symm⟩

/-- At the last point the three outputs' staging buffers hold the tables after that point. -/
theorem outs_eq (c : Dev nD) (t : Fin cfg0.N) (h1 : t.val % 128 = 127) :
    (outsAt0 m c t.val t.isLt).1 = countAt m c t.val t.isLt
    ∧ (outsAt0 m c t.val t.isLt).2.1 = confAt m c t.val t.isLt
    ∧ (outsAt0 m c t.val t.isLt).2.2.1 = correctAt m c t.val t.isLt := by
  have h0 : ¬t.val % 128 = 0 := by omega
  obtain ⟨⟨s0, s1, s2⟩, o0, o1, o2⟩ := tables_C m c t h0 h1
  obtain ⟨e0, e1, e2⟩ := tables_eq m c t.val t.isLt
  exact ⟨o0.trans (s0.symm.trans e0), o1.trans (s1.symm.trans e1), o2.trans (s2.symm.trans e2)⟩

/-- The last point, named once. -/
abbrev tLast : Fin cfg0.N := ⟨127, lastPt⟩

/-- A point whose number is 127 modulo 128 is the last point (the grid has 128 points). -/
theorem eq_last_of_mod (t : Fin cfg0.N) (h : t.val % 128 = 127) : t = tLast := by
  have hN : t.val < 128 := lt_of_lt_of_eq t.isLt (show cfg0.N = 128 from N_0)
  exact Fin.ext (by show t.val = 127; omega)

/-- The one write-back of output 2, at the last point, writes the count table after that point: block (0, 0) of the
    15 x 128 array, read through zero offsets, is the array. -/
theorem flushed2 (c : Dev nD) (t : Fin cfg0.N) (hf : (cfg0.win 2).flush t = true) :
    (dats m 0 c).flushed 2 t = ((cfg0.win 2).blk t).view.read (Elt F) (countFinal m c) := by
  obtain rfl : t = tLast := eq_last_of_mod t ((flush0_2 t).mp hf)
  show (cfg0.win 2).cut (grid0.coords tLast) ((dats m 0 c).after 2 tLast) = _
  rw [after0_2, (outs_eq m c tLast rfl).1]
  have hz' : (fun a => win0_2.index tLast a * main_v1_0.ty.shape.size a) = fun _ => 0 :=
    funext fun a => by fin_cases a <;> decide
  exact (Memref.read_access_unit_zero (Elt F) main_v1_0 hz' (fun a => by rw [congrFun hz' a]; simp) (countFinal m c)).symm

/-- The last point's block covers the whole array, so output 2 ends holding the count table after the last point. -/
theorem final2 (c : Dev nD) : (dats m 0 c).arrAt 2 cfg0.N = countFinal m c :=
  (dats m 0 c).arrAt_eq_of_cover 2 (countFinal m c) (flushed2 m c) fun i =>
    ⟨tLast, (flush0_2 tLast).mpr rfl, by
      show i ∈ ((View.whole main_v1_0).slice (win0_2.rect tLast)).set
      rw [View.set_slice_whole, Rect.mem_set_unit]
      intro a
      have h0 : (i 0 : Nat) < 15 := (i 0).isLt
      have h1 : (i 1 : Nat) < 128 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 15 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 128 from by decide +kernel]
        omega⟩

/-- The one write-back of output 3, at the last point, writes the confidence table after that point: block (0, 0) of the
    15 x 128 array, read through zero offsets, is the array. -/
theorem flushed3 (c : Dev nD) (t : Fin cfg0.N) (hf : (cfg0.win 3).flush t = true) :
    (dats m 0 c).flushed 3 t = ((cfg0.win 3).blk t).view.read (Elt F) (confFinal m c) := by
  obtain rfl : t = tLast := eq_last_of_mod t ((flush0_3 t).mp hf)
  show (cfg0.win 3).cut (grid0.coords tLast) ((dats m 0 c).after 3 tLast) = _
  rw [after0_3, (outs_eq m c tLast rfl).2.1]
  have hz' : (fun a => win0_3.index tLast a * main_v1_1.ty.shape.size a) = fun _ => 0 :=
    funext fun a => by fin_cases a <;> decide
  exact (Memref.read_access_unit_zero (Elt F) main_v1_1 hz' (fun a => by rw [congrFun hz' a]; simp) (confFinal m c)).symm

/-- The last point's block covers the whole array, so output 3 ends holding the confidence table after the last point. -/
theorem final3 (c : Dev nD) : (dats m 0 c).arrAt 3 cfg0.N = confFinal m c :=
  (dats m 0 c).arrAt_eq_of_cover 3 (confFinal m c) (flushed3 m c) fun i =>
    ⟨tLast, (flush0_3 tLast).mpr rfl, by
      show i ∈ ((View.whole main_v1_1).slice (win0_3.rect tLast)).set
      rw [View.set_slice_whole, Rect.mem_set_unit]
      intro a
      have h0 : (i 0 : Nat) < 15 := (i 0).isLt
      have h1 : (i 1 : Nat) < 128 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 15 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 128 from by decide +kernel]
        omega⟩

/-- The one write-back of output 4, at the last point, writes the correct-count table after that point: block (0, 0) of the
    15 x 128 array, read through zero offsets, is the array. -/
theorem flushed4 (c : Dev nD) (t : Fin cfg0.N) (hf : (cfg0.win 4).flush t = true) :
    (dats m 0 c).flushed 4 t = ((cfg0.win 4).blk t).view.read (Elt F) (correctFinal m c) := by
  obtain rfl : t = tLast := eq_last_of_mod t ((flush0_4 t).mp hf)
  show (cfg0.win 4).cut (grid0.coords tLast) ((dats m 0 c).after 4 tLast) = _
  rw [after0_4, (outs_eq m c tLast rfl).2.2]
  have hz' : (fun a => win0_4.index tLast a * main_v1_2.ty.shape.size a) = fun _ => 0 :=
    funext fun a => by fin_cases a <;> decide
  exact (Memref.read_access_unit_zero (Elt F) main_v1_2 hz' (fun a => by rw [congrFun hz' a]; simp) (correctFinal m c)).symm

/-- The last point's block covers the whole array, so output 4 ends holding the correct-count table after the last point. -/
theorem final4 (c : Dev nD) : (dats m 0 c).arrAt 4 cfg0.N = correctFinal m c :=
  (dats m 0 c).arrAt_eq_of_cover 4 (correctFinal m c) (flushed4 m c) fun i =>
    ⟨tLast, (flush0_4 tLast).mpr rfl, by
      show i ∈ ((View.whole main_v1_2).slice (win0_4.rect tLast)).set
      rw [View.set_slice_whole, Rect.mem_set_unit]
      intro a
      have h0 : (i 0 : Nat) < 15 := (i 0).isLt
      have h1 : (i 1 : Nat) < 128 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 15 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 128 from by decide +kernel]
        omega⟩

end Cert.KernelIdeal.Gen

end
-- ==== Proof.KTail.lean ====
/-
  The kernel program's run, read: after the region, @main transposes the three 15 x 128 tables to 128 x 15 and applies a
  chain of host operations to them and to the labels (the per-bin gap |conf/denom - correct/denom| * count / N summed
  over the non-empty bins of each class, then averaged over the classes below max(labels) + 1). The result buffer ends
  holding that chain of the three final tables; the arguments end unchanged.
-/
import proofs.«110949_j635655159837_1_alg».proof.Proof.KGrid
import Idealize.ShloMosaic.Lib.Pipeline.Value
import Idealize.ShloMosaic.Lib.StableHlo.Run
import Idealize.ShloMosaic.Lib.Tactic

set_option maxRecDepth 16384

noncomputable section

namespace Cert.KernelIdeal.Hist

open Idealize.ShloMosaic Idealize.ShloMosaic.TcCoe Cert.KernelIdeal
open Cert.KernelIdeal.Facts₀ Cert.KernelIdeal.Facts

variable {F : FTy → Type} [FloatOps F] [Facts]

/-- max(labels) + 1, as a scalar word. -/
def numClasses (L : IVec S262144 32) : IVec S_ 32 :=
  addi (Host.reduce IntOp.maxsi L (constantI S_ 32 2147483648#32) reducesTo_S262144_S_d0 h_S_) (constantI S_ 32 1#32)

/-- The closing chain of @main over the three 128 x 15 tables (count, confidence sum, correct count) and the labels. -/
def tailK (A B C : FVec F S128x15 .f32) (L : IVec S262144 32) : FVec F S_ .f32 :=
  Host.divf
    (Host.reduceAdd
      (select (cmpi .slt (iotaInDim S128 32 0) (broadcastInDim S128 ![] bcast_S_S128 (numClasses L)))
        (Host.reduceAdd
          (select (cmpf (F := F) .ogt A (broadcastInDim S128x15 ![] bcast_S_S128x15 (constant S_ .f32 0x00000000#32)))
            (Host.divf
              (mulf
                (Host.absf (subf
                  (Host.divf B (maximumf A (broadcastInDim S128x15 ![] bcast_S_S128x15 (constant S_ .f32 0x3F800000#32))))
                  (Host.divf C (maximumf A (broadcastInDim S128x15 ![] bcast_S_S128x15 (constant S_ .f32 0x3F800000#32))))))
                A)
              (broadcastInDim S128x15 ![] bcast_S_S128x15 (constant S_ .f32 0x48800000#32)))
            (broadcastInDim S128x15 ![] bcast_S_S128x15 (id (constant S_ .f32 0x00000000#32))))
          (constant S_ .f32 0x00000000#32) reducesTo_S128x15_S128_d1 h_S_)
        (broadcastInDim S128 ![] bcast_S_S128 (id (constant S_ .f32 0x00000000#32))))
      (constant S_ .f32 0x00000000#32) reducesTo_S128_S_d0 h_S_)
    (sitofp (F := F) .f32 (numClasses L))

end Cert.KernelIdeal.Hist

namespace Cert.KernelIdeal.Gen

open Idealize.ShloMosaic Idealize.ShloMosaic.TcCoe Idealize.ShloMosaic.Tactic Idealize.SL.Sem
open Idealize.ShloMosaic.Pipeline (Dat)

variable {F : FTy → Type} [FloatOps F]

variable (m : (ℓ : Loc nD τ sig) → Buf (Elt F) ℓ) (ρ : Dev nD → PrngReg)

/-- The first inlined `where` over plain references: the typed references' transports are identities. -/
theorem hostOps1_1_eq : (hostOps1_1 : List (HloOp τ sig (Elt F))) =
    [ StableHlo.unary main_cst_2 main_call0_v0 (id : (⟨S_, .f32⟩ : BufTy).Contents (Elt F) → (⟨S_, .f32⟩ : BufTy).Contents (Elt F)),
      StableHlo.unary main_call0_v0 main_call0_v1 (broadcastInDim S128x15 ![] bcast_S_S128x15 : (⟨S_, .f32⟩ : BufTy).Contents (Elt F) → (⟨S128x15, .f32⟩ : BufTy).Contents (Elt F)),
      StableHlo.ternary main_v6 main_v15 main_call0_v1 main_v16 (select : (⟨S128x15, .i1⟩ : BufTy).Contents (Elt F) → (⟨S128x15, .f32⟩ : BufTy).Contents (Elt F) → (⟨S128x15, .f32⟩ : BufTy).Contents (Elt F) → (⟨S128x15, .f32⟩ : BufTy).Contents (Elt F)) ] :=
  rfl

/-- The second inlined `where` over plain references. -/
theorem hostOps1_3_eq : (hostOps1_3 : List (HloOp τ sig (Elt F))) =
    [ StableHlo.unary main_cst_5 main_call1_v0 (id : (⟨S_, .f32⟩ : BufTy).Contents (Elt F) → (⟨S_, .f32⟩ : BufTy).Contents (Elt F)),
      StableHlo.unary main_call1_v0 main_call1_v1 (broadcastInDim S128 ![] bcast_S_S128 : (⟨S_, .f32⟩ : BufTy).Contents (Elt F) → (⟨S128, .f32⟩ : BufTy).Contents (Elt F)),
      StableHlo.ternary main_v22 main_v17 main_call1_v1 main_v23 (select : (⟨S128, .i1⟩ : BufTy).Contents (Elt F) → (⟨S128, .f32⟩ : BufTy).Contents (Elt F) → (⟨S128, .f32⟩ : BufTy).Contents (Elt F) → (⟨S128, .f32⟩ : BufTy).Contents (Elt F)) ] :=
  rfl

set_option maxHeartbeats 1000000 in
/-- The lines after the region, run from any contents: the result buffer ends at the closing chain of the three table
    arrays, transposed, and of the labels. -/
theorem tail_of (W : Valuation τ sig (Elt F)) (A B C : Vec F S15x128 .f32) (L : IVec S262144 32)
    (hA : W (Proc.devRef .tc main_v1_0) = A) (hB : W (Proc.devRef .tc main_v1_1) = B)
    (hC : W (Proc.devRef .tc main_v1_2) = C) (hL : W (Proc.devRef .tc main_arg1) = L) :
    StableHlo.after (List.flatten [hostOps1, hostOps1_1, hostOps1_2, hostOps1_3, hostOps1_4]) W (Proc.devRef .tc main_v26)
      = Hist.tailK
          (transpose S128x15 [1, 0] A Cert.KernelIdeal.Facts₀.transposes_S15x128_S128x15_1_0)
          (transpose S128x15 [1, 0] B Cert.KernelIdeal.Facts₀.transposes_S15x128_S128x15_1_0)
          (transpose S128x15 [1, 0] C Cert.KernelIdeal.Facts₀.transposes_S15x128_S128x15_1_0) L := by
  subst hA hB hC hL
  rw [hostOps1_1_eq, hostOps1_3_eq]
  simp only [List.flatten_cons, List.flatten_nil, List.append_nil, List.cons_append, List.nil_append,
    hostOps1, hostOps1_2, hostOps1_4]
  after_results_simp
  unfold Hist.tailK Hist.numClasses
  rfl

/-- What the lines after the region leave in the result buffer: the closing chain of the three final tables, transposed,
    and of the labels. -/
theorem tail_value (c : Dev nD) :
    Pipeline.afterTail₀ cfgs (dats m) 0 (V0 m) [hostOps1, hostOps1_1, hostOps1_2, hostOps1_3, hostOps1_4] c main_v26
      = Hist.tailK
          (transpose S128x15 [1, 0] (countFinal m c) Cert.KernelIdeal.Facts₀.transposes_S15x128_S128x15_1_0)
          (transpose S128x15 [1, 0] (confFinal m c) Cert.KernelIdeal.Facts₀.transposes_S15x128_S128x15_1_0)
          (transpose S128x15 [1, 0] (correctFinal m c) Cert.KernelIdeal.Facts₀.transposes_S15x128_S128x15_1_0)
          (m ((c.tc : Thread nD τ).loc main_arg1)) := by
  unfold Pipeline.afterTail₀
  refine tail_of _ _ _ _ _ ?_ ?_ ?_ ?_
  · exact (Pipeline.withArrays_arr spec0 launch0.win.arr_inj c _ _ 2).trans (final2 m c)
  · exact (Pipeline.withArrays_arr spec0 launch0.win.arr_inj c _ _ 3).trans (final3 m c)
  · exact (Pipeline.withArrays_arr spec0 launch0.win.arr_inj c _ _ 4).trans (final4 m c)
  · exact (Pipeline.withArrays_of_ne _ c (V0 m c) _ main_arg1 (by exact (by decide : ∀ w, Pipeline.arrRef spec0 w ≠ main_arg1))).trans
      (V_main_arg1 m c)

/-- Every weakly fair execution of the kernel program terminates with the result at the closing chain of the three final
    tables, transposed, and of the labels; the arguments unchanged. -/
theorem run_value : θ_run defs (onTc (τ := τ) (main (F := F))) ⟨m, fun _ => 0, ρ⟩ (fun r => ∀ c : Dev nD,
      r.2.mem ((c.tc : Thread nD τ).loc main_v26)
        = Hist.tailK
            (transpose S128x15 [1, 0] (countFinal m c) Cert.KernelIdeal.Facts₀.transposes_S15x128_S128x15_1_0)
            (transpose S128x15 [1, 0] (confFinal m c) Cert.KernelIdeal.Facts₀.transposes_S15x128_S128x15_1_0)
            (transpose S128x15 [1, 0] (correctFinal m c) Cert.KernelIdeal.Facts₀.transposes_S15x128_S128x15_1_0)
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, ?_, ?_⟩) (run_main m ρ)
  · exact ((h c).2 main_v26 (Pipeline.mem_restRefs_of main_v26 (by decide) (by decide))).trans (tail_value m c)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

end Cert.KernelIdeal.Gen

end
-- ==== Proof.RefRun.lean ====
/-
  The reference program's run, read: @main is 102 host operations in a row; every weakly fair execution terminates with
  the result buffer at the last stage of the chain of stages (each stage one operation applied to earlier stages:
  the row-wise softmax, the validity flag, the bin, the flat cell class * 15 + bin, the three scatter-adds, and the closing
  chain over the three 128 x 15 tables), as a function of the two arguments' launch contents; the arguments end unchanged.
  The proof walks the operation list in stretches: after each stretch the buffers still to be read hold their stages.
-/
import proofs.«110949_j635655159837_1_alg».proof.Proof.RunPatched
import proofs.«110949_j635655159837_1_alg».proof.Proof.ReadPatched
import Idealize.ShloMosaic.Lib.StableHlo.Run
import Idealize.ShloMosaic.Lib.Pipeline.Frame

set_option maxRecDepth 16384

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## The stretches

@main's operation list cut in nine. For each stretch and any contents `W` of the buffers before it: a buffer the stretch
writes and a later stretch reads holds its stage, given that the buffers the stretch reads from earlier hold theirs
(the operations' results composed, then the stage's definition unfolded down to those hypotheses); a buffer it does not
write keeps its contents. -/

/-- The row-wise softmax: the row maximum, exp (x - max), the row sum, the quotient (operations 0 to 13 of @main). -/
abbrev s1a : List (HloOp τ sig (Elt F)) :=
  [ nullary main_cst (constant S_ .f32 0xFF800000#32),
    binary main_arg0 main_cst main_v0 ((fun x v => Host.reduce FloatOps.maximumf x v reducesTo_S262144x128_S262144_d1 h_S_) : (⟨S262144x128, .f32⟩ : BufTy).Contents (Elt F) → (⟨S_, .f32⟩ : BufTy).Contents (Elt F) → (⟨S262144, .f32⟩ : BufTy).Contents (Elt F)),
    nullary main_cst_0 (constant S_ .f32 0xFF800000#32),
    unary main_cst_0 main_v1 (broadcastInDim S262144 ![] bcast_S_S262144 : (⟨S_, .f32⟩ : BufTy).Contents (Elt F) → (⟨S262144, .f32⟩ : BufTy).Contents (Elt F)),
    binary main_v1 main_v0 main_v2 (maximumf : (⟨S262144, .f32⟩ : BufTy).Contents (Elt F) → (⟨S262144, .f32⟩ : BufTy).Contents (Elt F) → (⟨S262144, .f32⟩ : BufTy).Contents (Elt F)),
    unary main_v2 main_v3 (broadcastInDim S262144x1 ![0] bcast_S262144_S262144x1_0 : (⟨S262144, .f32⟩ : BufTy).Contents (Elt F) → (⟨S262144x1, .f32⟩ : BufTy).Contents (Elt F)),
    unary main_v3 main_v4 (broadcastInDim S262144x128 ![0, 1] bcast_S262144x1_S262144x128_0_1 : (⟨S262144x1, .f32⟩ : BufTy).Contents (Elt F) → (⟨S262144x128, .f32⟩ : BufTy).Contents (Elt F)),
    binary main_arg0 main_v4 main_v5 (subf : (⟨S262144x128, .f32⟩ : BufTy).Contents (Elt F) → (⟨S262144x128, .f32⟩ : BufTy).Contents (Elt F) → (⟨S262144x128, .f32⟩ : BufTy).Contents (Elt F)),
    unary main_v5 main_v6 (Host.exp : (⟨S262144x128, .f32⟩ : BufTy).Contents (Elt F) → (⟨S262144x128, .f32⟩ : BufTy).Contents (Elt F)),
    nullary main_cst_1 (constant S_ .f32 0x00000000#32),
    binary main_v6 main_cst_1 main_v7 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    unary main_v7 main_v8 (broadcastInDim S262144x1 ![0] bcast_S262144_S262144x1_0 : (⟨S262144, .f32⟩ : BufTy).Contents (Elt F) → (⟨S262144x1, .f32⟩ : BufTy).Contents (Elt F)),
    unary main_v8 main_v9 (broadcastInDim S262144x128 ![0, 1] bcast_S262144x1_S262144x128_0_1 : (⟨S262144x1, .f32⟩ : BufTy).Contents (Elt F) → (⟨S262144x128, .f32⟩ : BufTy).Contents (Elt F)),
    binary main_v6 main_v9 main_v10 (Host.divf : (⟨S262144x128, .f32⟩ : BufTy).Contents (Elt F) → (⟨S262144x128, .f32⟩ : BufTy).Contents (Elt F) → (⟨S262144x128, .f32⟩ : BufTy).Contents (Elt F)) ]

theorem s1a_v10 (W : Valuation τ sig (Elt F)) (X : (⟨S262144x128, .f32⟩ : BufTy).Contents (Elt F))
    (h_arg0 : W (Proc.devRef .tc main_arg0) = X) :
    after s1a W (Proc.devRef .tc main_v10) = val_main_v10 (F := F) X := by
  after_results_simp
  rw [h_arg0]
  rfl

theorem s1a_keep_arg1 (W : Valuation τ sig (Elt F)) :
    after s1a W (Proc.devRef .tc main_arg1) = W (Proc.devRef .tc main_arg1) := by
  after_results_simp

/-- The validity flag, ceil (15 p) - 1, and the two bounds of the clip (operations 14 to 26). -/
abbrev s1b : List (HloOp τ sig (Elt F)) :=
  [ nullary main_cst_2 (constant S_ .f32 0x00000000#32),
    unary main_cst_2 main_v11 (broadcastInDim S262144x128 ![] bcast_S_S262144x128 : (⟨S_, .f32⟩ : BufTy).Contents (Elt F) → (⟨S262144x128, .f32⟩ : BufTy).Contents (Elt F)),
    binary main_v10 main_v11 main_v12 (cmpf (F := F) .ogt : (⟨S262144x128, .f32⟩ : BufTy).Contents (Elt F) → (⟨S262144x128, .f32⟩ : BufTy).Contents (Elt F) → (⟨S262144x128, .i1⟩ : BufTy).Contents (Elt F)),
    nullary main_cst_3 (constant S_ .f32 0x41700000#32),
    unary main_cst_3 main_v13 (broadcastInDim S262144x128 ![] bcast_S_S262144x128 : (⟨S_, .f32⟩ : BufTy).Contents (Elt F) → (⟨S262144x128, .f32⟩ : BufTy).Contents (Elt F)),
    binary main_v10 main_v13 main_v14 (mulf : (⟨S262144x128, .f32⟩ : BufTy).Contents (Elt F) → (⟨S262144x128, .f32⟩ : BufTy).Contents (Elt F) → (⟨S262144x128, .f32⟩ : BufTy).Contents (Elt F)),
    unary main_v14 main_v15 (Host.ceil : (⟨S262144x128, .f32⟩ : BufTy).Contents (Elt F) → (⟨S262144x128, .f32⟩ : BufTy).Contents (Elt F)),
    unary main_v15 main_v16 (fptosi 32 : (⟨S262144x128, .f32⟩ : BufTy).Contents (Elt F) → (⟨S262144x128, .i32⟩ : BufTy).Contents (Elt F)),
    nullary main_c (constantI S_ 32 1#32),
    unary main_c main_v17 (broadcastInDim S262144x128 ![] bcast_S_S262144x128 : (⟨S_, .i32⟩ : BufTy).Contents (Elt F) → (⟨S262144x128, .i32⟩ : BufTy).Contents (Elt F)),
    binary main_v16 main_v17 main_v18 (subi : (⟨S262144x128, .i32⟩ : BufTy).Contents (Elt F) → (⟨S262144x128, .i32⟩ : BufTy).Contents (Elt F) → (⟨S262144x128, .i32⟩ : BufTy).Contents (Elt F)),
    nullary main_c_4 (constantI S_ 32 0#32),
    nullary main_c_5 (constantI S_ 32 14#32) ]

theorem s1b_v12 (W : Valuation τ sig (Elt F)) (X : (⟨S262144x128, .f32⟩ : BufTy).Contents (Elt F))
    (h_v10 : W (Proc.devRef .tc main_v10) = val_main_v10 (F := F) X) :
    after s1b W (Proc.devRef .tc main_v12) = val_main_v12 (F := F) X := by
  after_results_simp
  rw [h_v10]
  rfl

theorem s1b_v18 (W : Valuation τ sig (Elt F)) (X : (⟨S262144x128, .f32⟩ : BufTy).Contents (Elt F))
    (h_v10 : W (Proc.devRef .tc main_v10) = val_main_v10 (F := F) X) :
    after s1b W (Proc.devRef .tc main_v18) = val_main_v18 (F := F) X := by
  after_results_simp
  rw [h_v10]
  rfl

theorem s1b_c_4 (W : Valuation τ sig (Elt F)) :
    after s1b W (Proc.devRef .tc main_c_4) = val_main_c_4 (F := F) := by
  after_results_simp
  rfl

theorem s1b_c_5 (W : Valuation τ sig (Elt F)) :
    after s1b W (Proc.devRef .tc main_c_5) = val_main_c_5 (F := F) := by
  after_results_simp
  rfl

theorem s1b_keep_v10 (W : Valuation τ sig (Elt F)) :
    after s1b W (Proc.devRef .tc main_v10) = W (Proc.devRef .tc main_v10) := by
  after_results_simp

theorem s1b_keep_arg1 (W : Valuation τ sig (Elt F)) :
    after s1b W (Proc.devRef .tc main_arg1) = W (Proc.devRef .tc main_arg1) := by
  after_results_simp

/-- The clip to 0 .. 14, a called function's six operations (27 to 32). -/
abbrev s2 : List (HloOp τ sig (Elt F)) :=
  [ TRef.unary (TRef.of (T := ⟨S_, .i32⟩) main_c_4) (TRef.of (T := ⟨S_, .i32⟩) main_call0_v0) id,
    TRef.unary (TRef.of (T := ⟨S_, .i32⟩) main_call0_v0) (TRef.of (T := ⟨S262144x128, .i32⟩) main_call0_v1) (broadcastInDim S262144x128 ![] bcast_S_S262144x128),
    TRef.binary (TRef.of (T := ⟨S262144x128, .i32⟩) main_call0_v1) (TRef.of (T := ⟨S262144x128, .i32⟩) main_v18) (TRef.of (T := ⟨S262144x128, .i32⟩) main_call0_v2) maxsi,
    TRef.unary (TRef.of (T := ⟨S_, .i32⟩) main_c_5) (TRef.of (T := ⟨S_, .i32⟩) main_call0_v3) id,
    TRef.unary (TRef.of (T := ⟨S_, .i32⟩) main_call0_v3) (TRef.of (T := ⟨S262144x128, .i32⟩) main_call0_v4) (broadcastInDim S262144x128 ![] bcast_S_S262144x128),
    TRef.binary (TRef.of (T := ⟨S262144x128, .i32⟩) main_call0_v4) (TRef.of (T := ⟨S262144x128, .i32⟩) main_call0_v2) (TRef.of (T := ⟨S262144x128, .i32⟩) main_v19) minsi ]

theorem s2_v19 (W : Valuation τ sig (Elt F)) (X : (⟨S262144x128, .f32⟩ : BufTy).Contents (Elt F))
    (h_c_5 : W (Proc.devRef .tc main_c_5) = val_main_c_5 (F := F))
    (h_c_4 : W (Proc.devRef .tc main_c_4) = val_main_c_4 (F := F))
    (h_v18 : W (Proc.devRef .tc main_v18) = val_main_v18 (F := F) X) :
    after s2 W (Proc.devRef .tc main_v19) = val_main_v19 (F := F) X := by
  after_results_simp
  simp only [TRef.ofBuf, TRef.toBuf, cast_eq]
  rw [h_c_5, h_c_4, h_v18]
  rfl

theorem s2_keep_v10 (W : Valuation τ sig (Elt F)) :
    after s2 W (Proc.devRef .tc main_v10) = W (Proc.devRef .tc main_v10) := by
  after_results_simp

theorem s2_keep_v12 (W : Valuation τ sig (Elt F)) :
    after s2 W (Proc.devRef .tc main_v12) = W (Proc.devRef .tc main_v12) := by
  after_results_simp

theorem s2_keep_arg1 (W : Valuation τ sig (Elt F)) :
    after s2 W (Proc.devRef .tc main_arg1) = W (Proc.devRef .tc main_arg1) := by
  after_results_simp

/-- The flat cell class * 15 + bin, the three weights, the three scatter-adds and their 128 x 15 tables (operations 33 to 66). -/
abbrev s3 : List (HloOp τ sig (Elt F)) :=
  [ nullary main_v20 (iotaInDim S128 32 0),
    unary main_v20 main_v21 (broadcastInDim S1x128 ![1] bcast_S128_S1x128_1 : (⟨S128, .i32⟩ : BufTy).Contents (Elt F) → (⟨S1x128, .i32⟩ : BufTy).Contents (Elt F)),
    nullary main_c_6 (constantI S_ 32 15#32),
    unary main_c_6 main_v22 (broadcastInDim S1x128 ![] bcast_S_S1x128 : (⟨S_, .i32⟩ : BufTy).Contents (Elt F) → (⟨S1x128, .i32⟩ : BufTy).Contents (Elt F)),
    binary main_v21 main_v22 main_v23 (muli : (⟨S1x128, .i32⟩ : BufTy).Contents (Elt F) → (⟨S1x128, .i32⟩ : BufTy).Contents (Elt F) → (⟨S1x128, .i32⟩ : BufTy).Contents (Elt F)),
    unary main_v23 main_v24 (broadcastInDim S262144x128 ![0, 1] bcast_S1x128_S262144x128_0_1 : (⟨S1x128, .i32⟩ : BufTy).Contents (Elt F) → (⟨S262144x128, .i32⟩ : BufTy).Contents (Elt F)),
    binary main_v24 main_v19 main_v25 (addi : (⟨S262144x128, .i32⟩ : BufTy).Contents (Elt F) → (⟨S262144x128, .i32⟩ : BufTy).Contents (Elt F) → (⟨S262144x128, .i32⟩ : BufTy).Contents (Elt F)),
    reshape main_v25 main_v26 rfl shapeCasts_S262144x128_S33554432,
    unary main_v12 main_v27 (uitofp (F := F) .f32 : (⟨S262144x128, .i1⟩ : BufTy).Contents (Elt F) → (⟨S262144x128, .f32⟩ : BufTy).Contents (Elt F)),
    reshape main_v27 main_v28 rfl shapeCasts_S262144x128_S33554432,
    nullary main_cst_7 (constant S_ .f32 0x00000000#32),
    unary main_cst_7 main_v29 (broadcastInDim S1920 ![] bcast_S_S1920 : (⟨S_, .f32⟩ : BufTy).Contents (Elt F) → (⟨S1920, .f32⟩ : BufTy).Contents (Elt F)),
    unary main_v26 main_v30 (broadcastInDim S33554432x1 ![0] bcast_S33554432_S33554432x1_0 : (⟨S33554432, .i32⟩ : BufTy).Contents (Elt F) → (⟨S33554432x1, .i32⟩ : BufTy).Contents (Elt F)),
    ternary main_v29 main_v30 main_v28 main_v31 ((fun x i u => Host.scatterAdd scatter_S1920_S33554432x1_S33554432_n_0_0_1 x i u) : (⟨S1920, .f32⟩ : BufTy).Contents (Elt F) → (⟨S33554432x1, .i32⟩ : BufTy).Contents (Elt F) → (⟨S33554432, .f32⟩ : BufTy).Contents (Elt F) → (⟨S1920, .f32⟩ : BufTy).Contents (Elt F)),
    binary main_v10 main_v27 main_v32 (mulf : (⟨S262144x128, .f32⟩ : BufTy).Contents (Elt F) → (⟨S262144x128, .f32⟩ : BufTy).Contents (Elt F) → (⟨S262144x128, .f32⟩ : BufTy).Contents (Elt F)),
    reshape main_v32 main_v33 rfl shapeCasts_S262144x128_S33554432,
    nullary main_cst_8 (constant S_ .f32 0x00000000#32),
    unary main_cst_8 main_v34 (broadcastInDim S1920 ![] bcast_S_S1920 : (⟨S_, .f32⟩ : BufTy).Contents (Elt F) → (⟨S1920, .f32⟩ : BufTy).Contents (Elt F)),
    unary main_v26 main_v35 (broadcastInDim S33554432x1 ![0] bcast_S33554432_S33554432x1_0 : (⟨S33554432, .i32⟩ : BufTy).Contents (Elt F) → (⟨S33554432x1, .i32⟩ : BufTy).Contents (Elt F)),
    ternary main_v34 main_v35 main_v33 main_v36 ((fun x i u => Host.scatterAdd scatter_S1920_S33554432x1_S33554432_n_0_0_1 x i u) : (⟨S1920, .f32⟩ : BufTy).Contents (Elt F) → (⟨S33554432x1, .i32⟩ : BufTy).Contents (Elt F) → (⟨S33554432, .f32⟩ : BufTy).Contents (Elt F) → (⟨S1920, .f32⟩ : BufTy).Contents (Elt F)),
    unary main_arg1 main_v37 (broadcastInDim S262144x1 ![0] bcast_S262144_S262144x1_0 : (⟨S262144, .i32⟩ : BufTy).Contents (Elt F) → (⟨S262144x1, .i32⟩ : BufTy).Contents (Elt F)),
    unary main_v37 main_v38 (broadcastInDim S262144x128 ![0, 1] bcast_S262144x1_S262144x128_0_1 : (⟨S262144x1, .i32⟩ : BufTy).Contents (Elt F) → (⟨S262144x128, .i32⟩ : BufTy).Contents (Elt F)),
    unary main_v21 main_v39 (broadcastInDim S262144x128 ![0, 1] bcast_S1x128_S262144x128_0_1 : (⟨S1x128, .i32⟩ : BufTy).Contents (Elt F) → (⟨S262144x128, .i32⟩ : BufTy).Contents (Elt F)),
    binary main_v38 main_v39 main_v40 (cmpi .eq : (⟨S262144x128, .i32⟩ : BufTy).Contents (Elt F) → (⟨S262144x128, .i32⟩ : BufTy).Contents (Elt F) → (⟨S262144x128, .i1⟩ : BufTy).Contents (Elt F)),
    unary main_v40 main_v41 (uitofp (F := F) .f32 : (⟨S262144x128, .i1⟩ : BufTy).Contents (Elt F) → (⟨S262144x128, .f32⟩ : BufTy).Contents (Elt F)),
    binary main_v41 main_v27 main_v42 (mulf : (⟨S262144x128, .f32⟩ : BufTy).Contents (Elt F) → (⟨S262144x128, .f32⟩ : BufTy).Contents (Elt F) → (⟨S262144x128, .f32⟩ : BufTy).Contents (Elt F)),
    reshape main_v42 main_v43 rfl shapeCasts_S262144x128_S33554432,
    nullary main_cst_9 (constant S_ .f32 0x00000000#32),
    unary main_cst_9 main_v44 (broadcastInDim S1920 ![] bcast_S_S1920 : (⟨S_, .f32⟩ : BufTy).Contents (Elt F) → (⟨S1920, .f32⟩ : BufTy).Contents (Elt F)),
    unary main_v26 main_v45 (broadcastInDim S33554432x1 ![0] bcast_S33554432_S33554432x1_0 : (⟨S33554432, .i32⟩ : BufTy).Contents (Elt F) → (⟨S33554432x1, .i32⟩ : BufTy).Contents (Elt F)),
    ternary main_v44 main_v45 main_v43 main_v46 ((fun x i u => Host.scatterAdd scatter_S1920_S33554432x1_S33554432_n_0_0_1 x i u) : (⟨S1920, .f32⟩ : BufTy).Contents (Elt F) → (⟨S33554432x1, .i32⟩ : BufTy).Contents (Elt F) → (⟨S33554432, .f32⟩ : BufTy).Contents (Elt F) → (⟨S1920, .f32⟩ : BufTy).Contents (Elt F)),
    reshape main_v31 main_v47 rfl shapeCasts_S1920_S128x15,
    reshape main_v36 main_v48 rfl shapeCasts_S1920_S128x15,
    reshape main_v46 main_v49 rfl shapeCasts_S1920_S128x15 ]

theorem s3_v47 (W : Valuation τ sig (Elt F)) (X : (⟨S262144x128, .f32⟩ : BufTy).Contents (Elt F))
    (h_v19 : W (Proc.devRef .tc main_v19) = val_main_v19 (F := F) X)
    (h_v12 : W (Proc.devRef .tc main_v12) = val_main_v12 (F := F) X) :
    after s3 W (Proc.devRef .tc main_v47) = val_main_v47 (F := F) X := by
  after_results_simp
  rw [h_v19, h_v12]
  rfl

theorem s3_v48 (W : Valuation τ sig (Elt F)) (X : (⟨S262144x128, .f32⟩ : BufTy).Contents (Elt F))
    (h_v19 : W (Proc.devRef .tc main_v19) = val_main_v19 (F := F) X)
    (h_v10 : W (Proc.devRef .tc main_v10) = val_main_v10 (F := F) X)
    (h_v12 : W (Proc.devRef .tc main_v12) = val_main_v12 (F := F) X) :
    after s3 W (Proc.devRef .tc main_v48) = val_main_v48 (F := F) X := by
  after_results_simp
  rw [h_v19, h_v10, h_v12]
  rfl

theorem s3_v49 (W : Valuation τ sig (Elt F)) (X : (⟨S262144x128, .f32⟩ : BufTy).Contents (Elt F)) (L : (⟨S262144, .i32⟩ : BufTy).Contents (Elt F))
    (h_v19 : W (Proc.devRef .tc main_v19) = val_main_v19 (F := F) X)
    (h_arg1 : W (Proc.devRef .tc main_arg1) = L)
    (h_v12 : W (Proc.devRef .tc main_v12) = val_main_v12 (F := F) X) :
    after s3 W (Proc.devRef .tc main_v49) = val_main_v49 (F := F) X L := by
  after_results_simp
  rw [h_v19, h_arg1, h_v12]
  rfl

theorem s3_keep_arg1 (W : Valuation τ sig (Elt F)) :
    after s3 W (Proc.devRef .tc main_arg1) = W (Proc.devRef .tc main_arg1) := by
  after_results_simp

/-- The per-cell error |conf / max (count, 1) - correct / max (count, 1)| * count / 262144 and the flag count > 0 (operations 67 to 81). -/
abbrev s4 : List (HloOp τ sig (Elt F)) :=
  [ nullary main_cst_10 (constant S_ .f32 0x00000000#32),
    unary main_cst_10 main_v50 (broadcastInDim S128x15 ![] bcast_S_S128x15 : (⟨S_, .f32⟩ : BufTy).Contents (Elt F) → (⟨S128x15, .f32⟩ : BufTy).Contents (Elt F)),
    binary main_v47 main_v50 main_v51 (cmpf (F := F) .ogt : (⟨S128x15, .f32⟩ : BufTy).Contents (Elt F) → (⟨S128x15, .f32⟩ : BufTy).Contents (Elt F) → (⟨S128x15, .i1⟩ : BufTy).Contents (Elt F)),
    nullary main_cst_11 (constant S_ .f32 0x3F800000#32),
    unary main_cst_11 main_v52 (broadcastInDim S128x15 ![] bcast_S_S128x15 : (⟨S_, .f32⟩ : BufTy).Contents (Elt F) → (⟨S128x15, .f32⟩ : BufTy).Contents (Elt F)),
    binary main_v47 main_v52 main_v53 (maximumf : (⟨S128x15, .f32⟩ : BufTy).Contents (Elt F) → (⟨S128x15, .f32⟩ : BufTy).Contents (Elt F) → (⟨S128x15, .f32⟩ : BufTy).Contents (Elt F)),
    binary main_v48 main_v53 main_v54 (Host.divf : (⟨S128x15, .f32⟩ : BufTy).Contents (Elt F) → (⟨S128x15, .f32⟩ : BufTy).Contents (Elt F) → (⟨S128x15, .f32⟩ : BufTy).Contents (Elt F)),
    binary main_v49 main_v53 main_v55 (Host.divf : (⟨S128x15, .f32⟩ : BufTy).Contents (Elt F) → (⟨S128x15, .f32⟩ : BufTy).Contents (Elt F) → (⟨S128x15, .f32⟩ : BufTy).Contents (Elt F)),
    binary main_v54 main_v55 main_v56 (subf : (⟨S128x15, .f32⟩ : BufTy).Contents (Elt F) → (⟨S128x15, .f32⟩ : BufTy).Contents (Elt F) → (⟨S128x15, .f32⟩ : BufTy).Contents (Elt F)),
    unary main_v56 main_v57 (Host.absf : (⟨S128x15, .f32⟩ : BufTy).Contents (Elt F) → (⟨S128x15, .f32⟩ : BufTy).Contents (Elt F)),
    binary main_v57 main_v47 main_v58 (mulf : (⟨S128x15, .f32⟩ : BufTy).Contents (Elt F) → (⟨S128x15, .f32⟩ : BufTy).Contents (Elt F) → (⟨S128x15, .f32⟩ : BufTy).Contents (Elt F)),
    nullary main_cst_12 (constant S_ .f32 0x48800000#32),
    unary main_cst_12 main_v59 (broadcastInDim S128x15 ![] bcast_S_S128x15 : (⟨S_, .f32⟩ : BufTy).Contents (Elt F) → (⟨S128x15, .f32⟩ : BufTy).Contents (Elt F)),
    binary main_v58 main_v59 main_v60 (Host.divf : (⟨S128x15, .f32⟩ : BufTy).Contents (Elt F) → (⟨S128x15, .f32⟩ : BufTy).Contents (Elt F) → (⟨S128x15, .f32⟩ : BufTy).Contents (Elt F)),
    nullary main_cst_13 (constant S_ .f32 0x00000000#32) ]

theorem s4_v51 (W : Valuation τ sig (Elt F)) (X : (⟨S262144x128, .f32⟩ : BufTy).Contents (Elt F))
    (h_v47 : W (Proc.devRef .tc main_v47) = val_main_v47 (F := F) X) :
    after s4 W (Proc.devRef .tc main_v51) = val_main_v51 (F := F) X := by
  after_results_simp
  rw [h_v47]
  rfl

theorem s4_v60 (W : Valuation τ sig (Elt F)) (X : (⟨S262144x128, .f32⟩ : BufTy).Contents (Elt F)) (L : (⟨S262144, .i32⟩ : BufTy).Contents (Elt F))
    (h_v48 : W (Proc.devRef .tc main_v48) = val_main_v48 (F := F) X)
    (h_v47 : W (Proc.devRef .tc main_v47) = val_main_v47 (F := F) X)
    (h_v49 : W (Proc.devRef .tc main_v49) = val_main_v49 (F := F) X L) :
    after s4 W (Proc.devRef .tc main_v60) = val_main_v60 (F := F) X L := by
  after_results_simp
  rw [h_v48, h_v47, h_v49]
  rfl

theorem s4_cst_13 (W : Valuation τ sig (Elt F)) :
    after s4 W (Proc.devRef .tc main_cst_13) = val_main_cst_13 (F := F) := by
  after_results_simp
  rfl

theorem s4_keep_arg1 (W : Valuation τ sig (Elt F)) :
    after s4 W (Proc.devRef .tc main_arg1) = W (Proc.devRef .tc main_arg1) := by
  after_results_simp

/-- The error where the count is positive, else 0: a called function's three operations (82 to 84). -/
abbrev s5 : List (HloOp τ sig (Elt F)) :=
  [ TRef.unary (TRef.of (T := ⟨S_, .f32⟩) main_cst_13) (TRef.of (T := ⟨S_, .f32⟩) main_call1_v0) id,
    TRef.unary (TRef.of (T := ⟨S_, .f32⟩) main_call1_v0) (TRef.of (T := ⟨S128x15, .f32⟩) main_call1_v1) (broadcastInDim S128x15 ![] bcast_S_S128x15),
    TRef.ternary (TRef.of (T := ⟨S128x15, .i1⟩) main_v51) (TRef.of (T := ⟨S128x15, .f32⟩) main_v60) (TRef.of (T := ⟨S128x15, .f32⟩) main_call1_v1) (TRef.of (T := ⟨S128x15, .f32⟩) main_v61) select ]

theorem s5_v61 (W : Valuation τ sig (Elt F)) (X : (⟨S262144x128, .f32⟩ : BufTy).Contents (Elt F)) (L : (⟨S262144, .i32⟩ : BufTy).Contents (Elt F))
    (h_v51 : W (Proc.devRef .tc main_v51) = val_main_v51 (F := F) X)
    (h_v60 : W (Proc.devRef .tc main_v60) = val_main_v60 (F := F) X L)
    (h_cst_13 : W (Proc.devRef .tc main_cst_13) = val_main_cst_13 (F := F)) :
    after s5 W (Proc.devRef .tc main_v61) = val_main_v61 (F := F) X L := by
  after_results_simp
  simp only [TRef.ofBuf, TRef.toBuf, cast_eq]
  rw [h_v51, h_v60, h_cst_13]
  rfl

theorem s5_keep_arg1 (W : Valuation τ sig (Elt F)) :
    after s5 W (Proc.devRef .tc main_arg1) = W (Proc.devRef .tc main_arg1) := by
  after_results_simp

/-- The sum over the 15 bins, the number of classes max label + 1, and the mask of the classes below it (operations 85 to 94). -/
abbrev s6 : List (HloOp τ sig (Elt F)) :=
  [ nullary main_cst_14 (constant S_ .f32 0x00000000#32),
    binary main_v61 main_cst_14 main_v62 ((fun x v => Host.reduceAdd x v reducesTo_S128x15_S128_d1 h_S_) : (⟨S128x15, .f32⟩ : BufTy).Contents (Elt F) → (⟨S_, .f32⟩ : BufTy).Contents (Elt F) → (⟨S128, .f32⟩ : BufTy).Contents (Elt F)),
    nullary main_c_15 (constantI S_ 32 2147483648#32),
    binary main_arg1 main_c_15 main_v63 ((fun x v => Host.reduce IntOp.maxsi x v reducesTo_S262144_S_d0 h_S_) : (⟨S262144, .i32⟩ : BufTy).Contents (Elt F) → (⟨S_, .i32⟩ : BufTy).Contents (Elt F) → (⟨S_, .i32⟩ : BufTy).Contents (Elt F)),
    nullary main_c_16 (constantI S_ 32 1#32),
    binary main_v63 main_c_16 main_v64 (addi : (⟨S_, .i32⟩ : BufTy).Contents (Elt F) → (⟨S_, .i32⟩ : BufTy).Contents (Elt F) → (⟨S_, .i32⟩ : BufTy).Contents (Elt F)),
    nullary main_v65 (iotaInDim S128 32 0),
    unary main_v64 main_v66 (broadcastInDim S128 ![] bcast_S_S128 : (⟨S_, .i32⟩ : BufTy).Contents (Elt F) → (⟨S128, .i32⟩ : BufTy).Contents (Elt F)),
    binary main_v65 main_v66 main_v67 (cmpi .slt : (⟨S128, .i32⟩ : BufTy).Contents (Elt F) → (⟨S128, .i32⟩ : BufTy).Contents (Elt F) → (⟨S128, .i1⟩ : BufTy).Contents (Elt F)),
    nullary main_cst_17 (constant S_ .f32 0x00000000#32) ]

theorem s6_v62 (W : Valuation τ sig (Elt F)) (X : (⟨S262144x128, .f32⟩ : BufTy).Contents (Elt F)) (L : (⟨S262144, .i32⟩ : BufTy).Contents (Elt F))
    (h_v61 : W (Proc.devRef .tc main_v61) = val_main_v61 (F := F) X L) :
    after s6 W (Proc.devRef .tc main_v62) = val_main_v62 (F := F) X L := by
  after_results_simp
  rw [h_v61]
  rfl

theorem s6_v64 (W : Valuation τ sig (Elt F)) (L : (⟨S262144, .i32⟩ : BufTy).Contents (Elt F))
    (h_arg1 : W (Proc.devRef .tc main_arg1) = L) :
    after s6 W (Proc.devRef .tc main_v64) = val_main_v64 (F := F) L := by
  after_results_simp
  rw [h_arg1]
  rfl

theorem s6_v67 (W : Valuation τ sig (Elt F)) (L : (⟨S262144, .i32⟩ : BufTy).Contents (Elt F))
    (h_arg1 : W (Proc.devRef .tc main_arg1) = L) :
    after s6 W (Proc.devRef .tc main_v67) = val_main_v67 (F := F) L := by
  after_results_simp
  rw [h_arg1]
  rfl

theorem s6_cst_17 (W : Valuation τ sig (Elt F)) :
    after s6 W (Proc.devRef .tc main_cst_17) = val_main_cst_17 (F := F) := by
  after_results_simp
  rfl

/-- The per-class sum where the class is below the number of classes, else 0: a called function's three operations (95 to 97). -/
abbrev s7 : List (HloOp τ sig (Elt F)) :=
  [ TRef.unary (TRef.of (T := ⟨S_, .f32⟩) main_cst_17) (TRef.of (T := ⟨S_, .f32⟩) main_call2_v0) id,
    TRef.unary (TRef.of (T := ⟨S_, .f32⟩) main_call2_v0) (TRef.of (T := ⟨S128, .f32⟩) main_call2_v1) (broadcastInDim S128 ![] bcast_S_S128),
    TRef.ternary (TRef.of (T := ⟨S128, .i1⟩) main_v67) (TRef.of (T := ⟨S128, .f32⟩) main_v62) (TRef.of (T := ⟨S128, .f32⟩) main_call2_v1) (TRef.of (T := ⟨S128, .f32⟩) main_v68) select ]

theorem s7_v68 (W : Valuation τ sig (Elt F)) (X : (⟨S262144x128, .f32⟩ : BufTy).Contents (Elt F)) (L : (⟨S262144, .i32⟩ : BufTy).Contents (Elt F))
    (h_v67 : W (Proc.devRef .tc main_v67) = val_main_v67 (F := F) L)
    (h_v62 : W (Proc.devRef .tc main_v62) = val_main_v62 (F := F) X L)
    (h_cst_17 : W (Proc.devRef .tc main_cst_17) = val_main_cst_17 (F := F)) :
    after s7 W (Proc.devRef .tc main_v68) = val_main_v68 (F := F) X L := by
  after_results_simp
  simp only [TRef.ofBuf, TRef.toBuf, cast_eq]
  rw [h_v67, h_v62, h_cst_17]
  rfl

theorem s7_keep_v64 (W : Valuation τ sig (Elt F)) :
    after s7 W (Proc.devRef .tc main_v64) = W (Proc.devRef .tc main_v64) := by
  after_results_simp

/-- The sum over the classes divided by the number of classes (operations 98 to 101). -/
abbrev s8 : List (HloOp τ sig (Elt F)) :=
  [ nullary main_cst_18 (constant S_ .f32 0x00000000#32),
    binary main_v68 main_cst_18 main_v69 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    unary main_v64 main_v70 (sitofp (F := F) .f32 : (⟨S_, .i32⟩ : BufTy).Contents (Elt F) → (⟨S_, .f32⟩ : BufTy).Contents (Elt F)),
    binary main_v69 main_v70 main_v71 (Host.divf : (⟨S_, .f32⟩ : BufTy).Contents (Elt F) → (⟨S_, .f32⟩ : BufTy).Contents (Elt F) → (⟨S_, .f32⟩ : BufTy).Contents (Elt F)) ]

theorem s8_v71 (W : Valuation τ sig (Elt F)) (X : (⟨S262144x128, .f32⟩ : BufTy).Contents (Elt F)) (L : (⟨S262144, .i32⟩ : BufTy).Contents (Elt F))
    (h_v68 : W (Proc.devRef .tc main_v68) = val_main_v68 (F := F) X L)
    (h_v64 : W (Proc.devRef .tc main_v64) = val_main_v64 (F := F) L) :
    after s8 W (Proc.devRef .tc main_v71) = val_main_v71 (F := F) X L := by
  after_results_simp
  rw [h_v68, h_v64]
  rfl

/-! ## The whole line -/

/-- @main's operation list is the nine stretches in a row. -/
theorem ops_split : (ops : List (HloOp τ sig (Elt F))) =
    s1a ++ (s1b ++ (s2 ++ (s3 ++ (s4 ++ (s5 ++ (s6 ++ (s7 ++ s8))))))) := rfl

/-- After all of @main's operations the result buffer holds the last stage of the arguments' contents: the stretches'
    lemmas chained, each stretch finding the buffers it reads at their stages. -/
theorem after_ops_v71 (V : Valuation τ sig (Elt F)) (X : (⟨S262144x128, .f32⟩ : BufTy).Contents (Elt F)) (L : (⟨S262144, .i32⟩ : BufTy).Contents (Elt F))
    (hX : V (Proc.devRef .tc main_arg0) = X) (hL : V (Proc.devRef .tc main_arg1) = L) :
    after ops V (Proc.devRef .tc main_v71) = val_main_v71 (F := F) X L := by
  have hsplit : after ops V
      = after s8 (after s7 (after s6 (after s5 (after s4 (after s3 (after s2 (after s1b (after s1a V)))))))) := by
    rw [ops_split]; simp only [after_append]
  rw [hsplit]
  -- softmax
  have a10 := s1a_v10 V X hX
  have a1 := (s1a_keep_arg1 V).trans hL
  -- validity flag, ceil (15 p) - 1, the clip's bounds
  have b12 := s1b_v12 _ X a10
  have b18 := s1b_v18 _ X a10
  have b10 := (s1b_keep_v10 _).trans a10
  have b1 := (s1b_keep_arg1 _).trans a1
  -- the clip
  have c19 := s2_v19 _ X (s1b_c_5 _) (s1b_c_4 _) b18
  have c10 := (s2_keep_v10 _).trans b10
  have c12 := (s2_keep_v12 _).trans b12
  have c1 := (s2_keep_arg1 _).trans b1
  -- the three scatter-adds and their tables
  have d47 := s3_v47 _ X c19 c12
  have d48 := s3_v48 _ X c19 c10 c12
  have d49 := s3_v49 _ X L c19 c1 c12
  have d1 := (s3_keep_arg1 _).trans c1
  -- the per-cell error
  have e51 := s4_v51 _ X d47
  have e60 := s4_v60 _ X L d48 d47 d49
  have e1 := (s4_keep_arg1 _).trans d1
  -- the first select
  have f61 := s5_v61 _ X L e51 e60 (s4_cst_13 _)
  have f1 := (s5_keep_arg1 _).trans e1
  -- the sum over bins, the class count, the class mask
  have g62 := s6_v62 _ X L f61
  have g64 := s6_v64 _ L f1
  have g67 := s6_v67 _ L f1
  -- the second select
  have h68 := s7_v68 _ X L g67 g62 (s6_cst_17 _)
  have h64 := (s7_keep_v64 _).trans g64
  -- the mean over classes
  exact s8_v71 _ X L h68 h64

/-- No operation of @main writes an argument. -/
theorem after_ops_arg0 (V : Valuation τ sig (Elt F)) :
    after ops V (Proc.devRef .tc main_arg0) = V (Proc.devRef .tc main_arg0) := by
  after_results_simp
theorem after_ops_arg1 (V : Valuation τ sig (Elt F)) :
    after ops V (Proc.devRef .tc main_arg1) = V (Proc.devRef .tc main_arg1) := by
  after_results_simp

/-- On every device, from any memory with zero counters: every weakly fair execution of @main terminates with the
    result at the last stage of the arguments' launch contents and the arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71)
        = val_main_v71 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v71).trans (after_ops_v71 _ _ _ rfl rfl),
      (h c main_arg0).trans (after_ops_arg0 _),
      (h c main_arg1).trans (after_ops_arg1 _)⟩)
    (run_seq scopedRefs_eq scopedSems_eq defs main (fun _ => ops) main_eq (fun _ => ops_sub) m ρ)

end Cert.ReferenceIdeal.RefValue

end
-- ==== Proof.Row.lean ====
/-
  The mathematics of one sample, over the extended reals.

  A sample is a row of 128 logits `x` and a label `l`. Its softmax is
      prob x c = exp (x c - max x) / sum_k exp (x k - max x).
  Class c of the sample falls in bin  bin x c = clip (ceil (15 * prob x c) - 1, 0, 14)  and counts there only when its
  probability is positive (`pos`). The three per-(bin, class) tables of the calibration error are sums over all samples of
      [bin x c = b] * w,   w = [prob > 0],   prob * [prob > 0],   [l = c] * [prob > 0].
  Every comparison is kept as the one-bit word the programs compute, and `bit` reads such a word as 0 or 1.
-/
import Idealize.ShloMosaic.PureOps.Ideal

noncomputable section

open scoped BigOperators

namespace Hist.Row

open Idealize.ShloMosaic

/-- One sample's logits. -/
abbrev Logits := Fin 128 → EReal

/-- The largest logit (from minus infinity). -/
def rmax (x : Logits) : EReal := (Finset.univ : Finset (Fin 128)).fold max (Ideal.ofBits .f32 0xFF800000#32) x

/-- exp (x c - max x). -/
def ex (x : Logits) (c : Fin 128) : EReal := Ideal.exp (x c - rmax x)

/-- The softmax probability of class c. -/
def prob (x : Logits) (c : Fin 128) : EReal := Ideal.div (ex x c) (∑ k : Fin 128, ex x k)

/-- The word "the probability is positive". -/
def pos (x : Logits) (c : Fin 128) : BitVec 1 :=
  FloatOps.cmpf (F := Ideal) (φ := .f32) .ogt (prob x c) (Ideal.ofBits .f32 0x00000000#32)

/-- The bin of class c's probability: ceil (15 p) - 1, clipped to 0 .. 14, as a 32-bit word. -/
def bin (x : Logits) (c : Fin 128) : BitVec 32 :=
  IntOp.minsi (14#32) (IntOp.maxsi (0#32)
    (IntOp.subi (FloatOps.fptosi (F := Ideal) (φ := .f32) 32
      (FloatOps.ceil (F := Ideal) (φ := .f32) (prob x c * Ideal.ofBits .f32 0x41700000#32))) (1#32)))

/-- A one-bit word read as the number 0 or 1 (widened to 32 bits, read signed). -/
def bit (b : BitVec 1) : EReal := (((b.setWidth 32).toInt : ℝ) : EReal)

/-- The word "the label is class c". -/
def hit (l : BitVec 32) (c : Fin 128) : BitVec 1 := IntOp.cmpi .eq l (BitVec.ofNat 32 c.val)

/-- The word "class c of the sample is in bin b". -/
def inBin (b : BitVec 32) (x : Logits) (c : Fin 128) : BitVec 1 := IntOp.cmpi .eq (bin x c) b

/-- What class c of a sample adds to its bin: to the count, -/
def wCount (x : Logits) (_l : BitVec 32) (c : Fin 128) : EReal := bit (pos x c)
/-- to the confidence sum, -/
def wConf (x : Logits) (_l : BitVec 32) (c : Fin 128) : EReal := prob x c * bit (pos x c)
/-- to the count of correct predictions. -/
def wCorrect (x : Logits) (l : BitVec 32) (c : Fin 128) : EReal := bit (hit l c) * bit (pos x c)

/-- The table of a weight: entry (b, c) sums the weight over the samples whose class c is in bin b. -/
def table (w : Logits → BitVec 32 → Fin 128 → EReal) (X : Fin 262144 → Logits) (L : Fin 262144 → BitVec 32)
    (b : Fin 15) (c : Fin 128) : EReal :=
  ∑ n : Fin 262144, bit (inBin (BitVec.ofNat 32 b.val) (X n) c) * w (X n) (L n) c

/-- A flat position j of the 262144 x 128 array: its sample, -/
def divN (j : Fin 33554432) : Fin 262144 := ⟨j.val / 128, by have := j.isLt; omega⟩
/-- its class, -/
def modK (j : Fin 33554432) : Fin 128 := ⟨j.val % 128, Nat.mod_lt _ (by decide)⟩
/-- and the word  class * 15 + bin  that names its cell in the flattened 128 x 15 table (32-bit arithmetic). -/
def flatWord (X : Fin 262144 → Logits) (j : Fin 33554432) : BitVec 32 :=
  IntOp.addi (IntOp.muli (BitVec.ofNat 32 (modK j).val) (15#32)) (bin (X (divN j)) (modK j))

end Hist.Row

end
-- ==== Proof.KRead.lean ====
/-
  One accumulation step read at a table entry, over the extended reals: entry (b, c) gains the sum over the block's
  2048 rows of  [the row's class c is in bin b] * weight,  each row read through the one-sample functions of Row.lean.
-/
import proofs.«110949_j635655159837_1_alg».proof.Proof.KStep
import proofs.«110949_j635655159837_1_alg».proof.Proof.Row
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hist

open Idealize.ShloMosaic Idealize.ShloMosaic.TcCoe Idealize.ShloMosaic.ValueIdx Cert.KernelIdeal
open Cert.KernelIdeal.Facts₀ Cert.KernelIdeal.Facts
open _root_.Hist

variable [Facts]

/-- Row r of a block of logits, as one sample. -/
abbrev rowOf (x : Vec Ideal S2048x128 .f32) (r : Fin 2048) : Row.Logits := fun k => x (ix2 r k)
/-- Row r's label. -/
abbrev labelOf (l : Vec Ideal S2048x1 .i32) (r : Fin 2048) : BitVec 32 := l (ix2 r (0 : Fin 1))

/-! ## The layout operations of the block, read at an index -/

/-- A reduction along the classes: the reduced row index r with class k put back is (r, k). -/
theorem lift_class (h : S2048x128.Reduces [1] S2048) (r : Fin 2048) (k : Fin (S2048x128.size 1)) :
    h.lift (ix1 r) k = ix2 r (⟨k.val, k.isLt⟩ : Fin 128) := by
  funext a; apply Fin.ext
  fin_cases a <;> rfl

/-- A reduction down the rows: the reduced class index c with row r put back is (r, c). -/
theorem lift_sample (h : S2048x128.Reduces [0] S128) (c : Fin 128) (r : Fin (S2048x128.size 0)) :
    h.lift (ix1 c) r = ix2 (⟨r.val, r.isLt⟩ : Fin 2048) c := by
  funext a; apply Fin.ext
  fin_cases a <;> rfl

/-- 2048 numbers cast to a column read, at (r, 0), number r. -/
theorem column_read {α : Type} (h : S2048.ShapeCasts S2048x1) (v : S2048.Idx → α) (r : Fin 2048) (u : Fin 1) :
    shapeCast S2048x1 v h (ix2 r u) = v (ix1 r) :=
  shapeCast_apply v h _ _ (by
    have hu : u.val = 0 := by omega
    rw [Shape.rowMajor_val_two, Shape.rowMajor_val_one]
    show r.val = r.val * 1 + u.val
    rw [hu]; omega)

/-- A column repeated along the 128 classes reads, at (r, k), the column's entry r. -/
theorem across_read {α : Type} (h : S2048x1.Broadcasts S2048x128) (v : S2048x1.Idx → α) (r : Fin 2048) (k : Fin 128) :
    broadcastTo S2048x128 v h (ix2 r k) = v (ix2 r (0 : Fin 1)) := by
  refine broadcastTo_apply v h (ix2 r k) (ix2 r (0 : Fin 1)) fun ax => ?_
  match ax with
  | ⟨0, _⟩ => rfl
  | ⟨1, _⟩ => rfl

/-- 2048 numbers made a column and repeated along the classes read, at (r, k), number r. -/
theorem perRow_read {α : Type} (v : S2048.Idx → α) (r : Fin 2048) (k : Fin 128) :
    broadcastTo S2048x128 (shapeCast S2048x1 v shapeCasts_S2048_S2048x1) broadcasts_S2048x1_S2048x128 (ix2 r k) = v (ix1 r) := by
  rw [across_read, column_read]

/-! ## The block's vocabulary, one entry at a time -/

variable (x : Vec Ideal S2048x128 .f32) (l : Vec Ideal S2048x1 .i32) (r : Fin 2048) (k : Fin 128)

/-- The row maximum of row r is the one-sample maximum of that row. -/
theorem rowMax_apply : rowMax x (ix1 r) = Row.rmax (rowOf x r) := by
  unfold rowMax Row.rmax
  refine (Ideal.multiReduction_maximumf_single x _ reduces_S2048x128_S2048 (.inl rfl) rfl (ix1 r)).trans ?_
  have hf : (x ∘ (reduces_S2048x128_S2048).lift (ix1 r)) = rowOf x r := funext fun k => by
    show x ((reduces_S2048x128_S2048).lift (ix1 r) k) = x (ix2 r k)
    rw [lift_class]
    rfl
  rw [hf]
  rfl

/-- The shifted exponential at (r, k). -/
theorem expShift_apply : expShift x (ix2 r k) = Row.ex (rowOf x r) k := by
  unfold expShift Row.ex
  show Ideal.exp (x (ix2 r k) - broadcastTo S2048x128 (shapeCast S2048x1 (rowMax x) shapeCasts_S2048_S2048x1)
    broadcasts_S2048x1_S2048x128 (ix2 r k)) = _
  rw [perRow_read, rowMax_apply]

/-- The sum of row r's shifted exponentials. -/
theorem rowSum_apply : rowSum x (ix1 r) = ∑ k : Fin 128, Row.ex (rowOf x r) k := by
  unfold rowSum
  refine (Ideal.multiReduction_add_single (expShift x) _ reduces_S2048x128_S2048 (.inl rfl) rfl (ix1 r)).trans ?_
  refine Finset.sum_congr rfl fun k _ => ?_
  rw [lift_class]
  exact expShift_apply x r _

/-- The softmax probability at (r, k). -/
theorem probs_apply : probs x (ix2 r k) = Row.prob (rowOf x r) k := by
  unfold probs Row.prob
  rw [divf_apply, perRow_read, rowSum_apply, expShift_apply]

/-- The validity flag at (r, k). -/
theorem valid_apply : valid x (ix2 r k) = Row.bit (Row.pos (rowOf x r) k) := by
  unfold valid
  show Row.bit (FloatOps.cmpf (F := Ideal) (φ := .f32) .ogt (probs x (ix2 r k)) (Ideal.ofBits .f32 0x00000000#32)) = _
  rw [probs_apply]
  rfl

/-- The bin at (r, k). -/
theorem bins_apply : bins x (ix2 r k) = Row.bin (rowOf x r) k := by
  unfold bins
  show IntOp.minsi (14#32) (IntOp.maxsi (0#32)
    (IntOp.subi (FloatOps.fptosi (F := Ideal) (φ := .f32) 32
      (FloatOps.ceil (F := Ideal) (φ := .f32) (probs x (ix2 r k) * Ideal.ofBits .f32 0x41700000#32))) (1#32))) = _
  rw [probs_apply]
  rfl

/-- The label one-hot at (r, k). -/
theorem hot_apply : hot (F := Ideal) l (ix2 r k) = Row.bit (Row.hit (labelOf l r) k) := by
  unfold hot
  show Row.bit (IntOp.cmpi .eq
    (broadcastTo S2048x128 (shapeCast S2048x1 l shapeCasts_S2048x1_S2048x1 : IVec S2048x1 32) broadcasts_S2048x1_S2048x128 (ix2 r k))
    (iota .tc S2048x128 32 [1] iota_S2048x128_d1_w32 (ix2 r k))) = _
  rw [across_read, shapeCast_self, iota_single_apply]
  rfl

/-- The mask of bin b at (r, k). -/
theorem maskOf_apply (b : BitVec 32) : maskOf b x (ix2 r k) = Row.bit (Row.inBin b (rowOf x r) k) := by
  unfold maskOf
  show Row.bit (IntOp.cmpi .eq (bins x (ix2 r k)) b) = _
  rw [bins_apply]
  rfl

/-- The confidence weight at (r, k). -/
theorem conf_apply : conf x (ix2 r k) = Row.wConf (rowOf x r) (labelOf l r) k := by
  unfold conf Row.wConf
  rw [mulf_apply, probs_apply, valid_apply]

/-- The correct-prediction weight at (r, k). -/
theorem correct_apply : correct x l (ix2 r k) = Row.wCorrect (rowOf x r) (labelOf l r) k := by
  unfold correct Row.wCorrect
  rw [mulf_apply, hot_apply, valid_apply]

/-- The column sum at lane c: the sum down the 2048 rows. -/
theorem colSum_apply (v : FVec Ideal S2048x128 .f32) (c : Fin 128) :
    colSum v (ix2 (0 : Fin 1) c) = ∑ r : Fin 2048, v (ix2 r c) := by
  unfold colSum
  rw [shapeCast_a_1a_apply]
  refine (Ideal.multiReduction_add_single v _ reduces_S2048x128_S128 (.inl rfl) rfl (ix1 c)).trans ?_
  refine Finset.sum_congr rfl fun r _ => ?_
  rw [lift_sample]
  rfl

/-- The lane of entry (b, c) is (0, c). -/
theorem laneOf_ix2 (b : Fin 15) (c : Fin 128) : laneOf (ix2 b c) = ix2 (0 : Fin 1) c := by
  funext a; apply Fin.ext
  match a with
  | ⟨0, _⟩ => rfl
  | ⟨1, _⟩ => rfl

/-- One step of any of the three tables at entry (b, c), for a weight read row by row. -/
theorem stepWith_apply (b : Fin 15) (c : Fin 128) (w : FVec Ideal S2048x128 .f32) (W : Fin 2048 → EReal)
    (hw : ∀ r : Fin 2048, w (ix2 r c) = W r) (prev : Vec Ideal S15x128 .f32) :
    stepWith (F := Ideal) (fun b => colSum (mulf (maskOf b x) w)) prev (ix2 b c)
      = prev (ix2 b c) + ∑ r : Fin 2048, Row.bit (Row.inBin (BitVec.ofNat 32 b.val) (rowOf x r) c) * W r := by
  unfold stepWith
  show prev (ix2 b c) + colSum (mulf (maskOf (BitVec.ofNat 32 b.val) x) w) (laneOf (ix2 b c)) = _
  rw [laneOf_ix2, colSum_apply]
  refine congrArg (prev (ix2 b c) + ·) (Finset.sum_congr rfl fun r _ => ?_)
  rw [mulf_apply, maskOf_apply, hw]

theorem stepCount_apply (x : Vec Ideal S2048x128 .f32) (l : Vec Ideal S2048x1 .i32) (prev : Vec Ideal S15x128 .f32)
    (b : Fin 15) (c : Fin 128) :
    stepCount (F := Ideal) x prev (ix2 b c)
      = prev (ix2 b c) + ∑ r : Fin 2048, Row.bit (Row.inBin (BitVec.ofNat 32 b.val) (rowOf x r) c) * Row.wCount (rowOf x r) (labelOf l r) c :=
  stepWith_apply x b c (valid x) _ (fun r => valid_apply x r c) prev

theorem stepConf_apply (x : Vec Ideal S2048x128 .f32) (l : Vec Ideal S2048x1 .i32) (prev : Vec Ideal S15x128 .f32)
    (b : Fin 15) (c : Fin 128) :
    stepConf (F := Ideal) x prev (ix2 b c)
      = prev (ix2 b c) + ∑ r : Fin 2048, Row.bit (Row.inBin (BitVec.ofNat 32 b.val) (rowOf x r) c) * Row.wConf (rowOf x r) (labelOf l r) c :=
  stepWith_apply x b c (conf x) _ (fun r => conf_apply x l r c) prev

theorem stepCorrect_apply (x : Vec Ideal S2048x128 .f32) (l : Vec Ideal S2048x1 .i32) (prev : Vec Ideal S15x128 .f32)
    (b : Fin 15) (c : Fin 128) :
    stepCorrect (F := Ideal) x l prev (ix2 b c)
      = prev (ix2 b c) + ∑ r : Fin 2048, Row.bit (Row.inBin (BitVec.ofNat 32 b.val) (rowOf x r) c) * Row.wCorrect (rowOf x r) (labelOf l r) c :=
  stepWith_apply x b c (correct x l) _ (fun r => correct_apply x l r c) prev

/-- An entry of the table of zeros is zero. -/
theorem zeroTable_apply (y : S15x128.Idx) : (zeroTable (F := Ideal)) y = 0 :=
  Ideal.ofBits_zero_f32

end Cert.KernelIdeal.Hist

end
-- ==== Proof.KValue.lean ====
/-
  The three tables after the last point, entry by entry, over the extended reals: entry (b, c) is the sum over ALL
  262144 samples of  [class c of the sample is in bin b] * weight.  Block t holds samples 2048 t .. 2048 t + 2047, so
  the 128 steps of 2048 rows each add up to the sum over all samples.
-/
import proofs.«110949_j635655159837_1_alg».proof.Proof.KGrid
import proofs.«110949_j635655159837_1_alg».proof.Proof.KRead
import proofs.«110949_j635655159837_1_alg».proof.Proof.Row
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Gen

open Idealize.ShloMosaic Idealize.ShloMosaic.TcCoe Idealize.ShloMosaic.ValueIdx Idealize.SL.Sem
open _root_.Hist

variable (m : (ℓ : Loc nD τ sig) → Buf (Elt Ideal) ℓ)

/-- Sample n of the logits argument, and its label, as core c finds them at launch. -/
abbrev samples (c : Dev nD) (n : Fin 262144) : Row.Logits := fun k => m ((c : Thread nD τ).loc main_arg0) (ix2 n k)
abbrev labels (c : Dev nD) (n : Fin 262144) : BitVec 32 := m ((c : Thread nD τ).loc main_arg1) (ix1 n)

/-! ## Sums: a running total is the sum of its increments; blocks of rows are all the samples -/

/-- A sequence that starts at its first increment and gains one increment per step is the sum of the increments. -/
theorem acc_sum {N : ℕ} (a : (n : ℕ) → n < N → EReal) (G : Fin N → EReal)
    (h0 : ∀ h, a 0 h = G ⟨0, h⟩)
    (hs : ∀ n (h : n + 1 < N), a (n + 1) h = a n (Nat.lt_of_succ_lt h) + G ⟨n + 1, h⟩) :
    ∀ n (h : n < N), a n h = ∑ t : Fin (n + 1), G ⟨t.val, lt_of_lt_of_le t.isLt (Nat.succ_le_of_lt h)⟩
  | 0, h => by rw [h0 h, Fin.sum_univ_one]; rfl
  | n + 1, h => by
    rw [hs n h, acc_sum a G h0 hs n (Nat.lt_of_succ_lt h), Fin.sum_univ_castSucc (n := n + 1)]
    rfl

/-- Sample 2048 t + r is row r of block t: the 128 blocks of 2048 rows are the 262144 samples. -/
def blockEquiv : Fin 128 × Fin 2048 ≃ Fin 262144 where
  toFun p := ⟨2048 * p.1.val + p.2.val, by have := p.1.isLt; have := p.2.isLt; omega⟩
  invFun n := (⟨n.val / 2048, by have := n.isLt; omega⟩, ⟨n.val % 2048, Nat.mod_lt _ (by decide)⟩)
  left_inv p := by
    have h1 := p.1.isLt
    have h2 := p.2.isLt
    exact Prod.ext (Fin.ext (by show (2048 * p.1.val + p.2.val) / 2048 = p.1.val; omega))
      (Fin.ext (by show (2048 * p.1.val + p.2.val) % 2048 = p.2.val; omega))
  right_inv n := Fin.ext (by show 2048 * (n.val / 2048) + n.val % 2048 = n.val; omega)

/-- The sum over the 128 blocks of the sums over their 2048 rows is the sum over all samples. -/
theorem sum_blocks (f : Fin 262144 → EReal) (hlt : ∀ (t : Fin 128) (r : Fin 2048), 2048 * t.val + r.val < 262144) :
    ∑ t : Fin 128, ∑ r : Fin 2048, f ⟨2048 * t.val + r.val, hlt t r⟩ = ∑ n : Fin 262144, f n :=
  (Fintype.sum_prod_type (fun p : Fin 128 × Fin 2048 => f (blockEquiv p))).symm.trans (Equiv.sum_comp blockEquiv f)

/-! ## Block rows are array rows -/

/-- Both input windows step along the rows with the grid point and stay at column block 0 — decided over the grid. -/
theorem idx0_0 : ∀ t : Fin grid0.N, win0_0.index t (0 : Fin 2) = t.val := by decide +kernel
theorem idx0_1 : ∀ t : Fin grid0.N, win0_0.index t (1 : Fin 2) = 0 := by decide +kernel
theorem idx1_0 : ∀ t : Fin grid0.N, win0_1.index t (0 : Fin 2) = t.val := by decide +kernel
theorem idx1_1 : ∀ t : Fin grid0.N, win0_1.index t (1 : Fin 2) = 0 := by decide +kernel

/-- The grid has 128 points, -/
theorem pt_lt (t : Fin cfg0.N) : t.val < 128 := lt_of_lt_of_eq t.isLt N_0

/-- so row r of block t is a sample. -/
theorem sample_lt (t : Fin cfg0.N) (r : Fin 2048) : 2048 * t.val + r.val < 262144 := by
  have h := pt_lt t
  have := r.isLt
  omega

/-- Row r of the logits block at point t is sample 2048 t + r: the window reads the argument at (2048 t + r, k). -/
theorem xblk_apply (c : Dev nD) (t : Fin cfg0.N) (r : Fin 2048) (k : Fin 128) :
    xblk (F := Ideal) m c t (ix2 r k) = samples m c ⟨2048 * t.val + r.val, sample_lt t r⟩ k := by
  unfold xblk iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 2048 + 1 * r.val = 2048 * t.val + r.val; rw [idx0_0 t]; omega
  | ⟨1, _⟩ => show win0_0.index t 1 * 128 + 1 * k.val = k.val; rw [idx0_1 t]; omega

/-- The labels window's array is the labels argument reshaped to one column, written before the region. -/
theorem v0_eq (c : Dev nD) : (V m c main_v0 : S262144x1.Idx → BitVec 32)
    = shapeCast S262144x1 (m ((c : Thread nD τ).loc main_arg1)) Facts₀.shapeCasts_S262144_S262144x1 := by
  dsimp only [V, V0]
  simp only [hostOps0, List.flatten_cons, List.flatten_nil, List.append_nil]
  after_results
  rfl

/-- Row r of the labels block at point t is the label of sample 2048 t + r: the column's entry (n, 0) is entry n of
    the argument (the same row-major position). -/
theorem lblk_apply (c : Dev nD) (t : Fin cfg0.N) (r : Fin 2048) :
    lblk (F := Ideal) m c t (ix2 r (0 : Fin 1)) = labels m c ⟨2048 * t.val + r.val, sample_lt t r⟩ := by
  unfold lblk iblk
  rw [View.read_apply]
  show V m c main_v0 _ = _
  rw [v0_eq]
  refine (shapeCast_apply _ _ _ (ix1 ⟨2048 * t.val + r.val, sample_lt t r⟩) ?_).trans rfl
  rw [Shape.rowMajor_val_one, Shape.rowMajor_val_two]
  show 2048 * t.val + r.val = (win0_1.index t 0 * 2048 + 1 * r.val) * 1 + (win0_1.index t 1 * 1 + 1 * 0)
  rw [idx1_0 t, idx1_1 t]
  omega

/-! ## A table after the last point is the table of its weight -/

/-- What sample n adds to entry (b, cl) of the table of weight w, -/
abbrev term (w : Row.Logits → BitVec 32 → Fin 128 → EReal) (c : Dev nD) (b : Fin 15) (cl : Fin 128)
    (n : Fin 262144) : EReal :=
  Row.bit (Row.inBin (BitVec.ofNat 32 b.val) (samples m c n) cl) * w (samples m c n) (labels m c n) cl

/-- and what the block of point t adds: the sum over its 2048 rows. -/
abbrev blockTerm (w : Row.Logits → BitVec 32 → Fin 128 → EReal) (c : Dev nD) (b : Fin 15) (cl : Fin 128)
    (t : Fin cfg0.N) : EReal :=
  ∑ r : Fin 2048, term m w c b cl ⟨2048 * t.val + r.val, sample_lt t r⟩

/-- The sum a step adds, over the rows of the blocks at point t, is that block's term. -/
theorem block_sum (w : Row.Logits → BitVec 32 → Fin 128 → EReal) (c : Dev nD) (b : Fin 15) (cl : Fin 128)
    (t : Fin cfg0.N) :
    ∑ r : Fin 2048, Row.bit (Row.inBin (BitVec.ofNat 32 b.val) (Hist.rowOf (xblk m c t) r) cl)
        * w (Hist.rowOf (xblk m c t) r) (Hist.labelOf (lblk m c t) r) cl
      = blockTerm m w c b cl t := by
  refine Finset.sum_congr rfl fun r _ => ?_
  have hx : Hist.rowOf (xblk m c t) r = samples m c ⟨2048 * t.val + r.val, sample_lt t r⟩ :=
    funext fun k => xblk_apply m c t r k
  have hl : Hist.labelOf (lblk m c t) r = labels m c ⟨2048 * t.val + r.val, sample_lt t r⟩ := lblk_apply m c t r
  rw [hx, hl]

/-- A table that starts from zeros plus the first block's sums and gains each later block's sums ends, after point
    127, at the table of the weight: the sum over all samples. -/
theorem table_of_steps (w : Row.Logits → BitVec 32 → Fin 128 → EReal) (c : Dev nD) (b : Fin 15) (cl : Fin 128)
    (A : (n : ℕ) → n < cfg0.N → Vec Ideal S15x128 .f32)
    (h0 : ∀ h : 0 < cfg0.N, A 0 h (ix2 b cl) = (Hist.zeroTable (F := Ideal)) (ix2 b cl)
      + ∑ r : Fin 2048, Row.bit (Row.inBin (BitVec.ofNat 32 b.val) (Hist.rowOf (xblk m c ⟨0, h⟩) r) cl)
          * w (Hist.rowOf (xblk m c ⟨0, h⟩) r) (Hist.labelOf (lblk m c ⟨0, h⟩) r) cl)
    (hs : ∀ n (h : n + 1 < cfg0.N), A (n + 1) h (ix2 b cl) = A n (Nat.lt_of_succ_lt h) (ix2 b cl)
      + ∑ r : Fin 2048, Row.bit (Row.inBin (BitVec.ofNat 32 b.val) (Hist.rowOf (xblk m c ⟨n + 1, h⟩) r) cl)
          * w (Hist.rowOf (xblk m c ⟨n + 1, h⟩) r) (Hist.labelOf (lblk m c ⟨n + 1, h⟩) r) cl) :
    A 127 lastPt (ix2 b cl) = Row.table w (samples m c) (labels m c) b cl := by
  have key := acc_sum (fun n h => A n h (ix2 b cl)) (blockTerm m w c b cl)
    (fun h => by rw [h0 h, Hist.zeroTable_apply, zero_add, block_sum])
    (fun n h => by rw [hs n h, block_sum]) 127 lastPt
  refine key.trans ?_
  unfold Row.table
  exact sum_blocks (term m w c b cl) (fun t r => by have := t.isLt; have := r.isLt; omega)

theorem countFinal_apply (c : Dev nD) (b : Fin 15) (cl : Fin 128) :
    countFinal (F := Ideal) m c (ix2 b cl) = Row.table Row.wCount (samples m c) (labels m c) b cl :=
  table_of_steps m Row.wCount c b cl (countAt m c)
    (fun h => by rw [countAt]; exact Hist.stepCount_apply _ (lblk m c ⟨0, h⟩) _ b cl)
    (fun n h => by rw [countAt]; exact Hist.stepCount_apply _ (lblk m c ⟨n + 1, h⟩) _ b cl)
theorem confFinal_apply (c : Dev nD) (b : Fin 15) (cl : Fin 128) :
    confFinal (F := Ideal) m c (ix2 b cl) = Row.table Row.wConf (samples m c) (labels m c) b cl :=
  table_of_steps m Row.wConf c b cl (confAt m c)
    (fun h => by rw [confAt]; exact Hist.stepConf_apply _ (lblk m c ⟨0, h⟩) _ b cl)
    (fun n h => by rw [confAt]; exact Hist.stepConf_apply _ (lblk m c ⟨n + 1, h⟩) _ b cl)
theorem correctFinal_apply (c : Dev nD) (b : Fin 15) (cl : Fin 128) :
    correctFinal (F := Ideal) m c (ix2 b cl) = Row.table Row.wCorrect (samples m c) (labels m c) b cl :=
  table_of_steps m Row.wCorrect c b cl (correctAt m c)
    (fun h => by rw [correctAt]; exact Hist.stepCorrect_apply _ (lblk m c ⟨0, h⟩) _ b cl)
    (fun n h => by rw [correctAt]; exact Hist.stepCorrect_apply _ (lblk m c ⟨n + 1, h⟩) _ b cl)

end Cert.KernelIdeal.Gen

end
-- ==== Proof.RefRows.lean ====
/-
  The reference's stages read at a flat position, over the extended reals, through the one-sample functions of Row.lean:
  the three arrays of updates its scatters add (validity, probability * validity, label hit * validity, each flattened)
  and the array of cells  class * 15 + bin  they are added at.
-/
import proofs.«110949_j635655159837_1_alg».proof.Proof.ReadPatched
import proofs.«110949_j635655159837_1_alg».proof.Proof.Row
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open _root_.Hist

/-- Sample n of the logits, and its label. -/
abbrev sampleOf (X : (⟨S262144x128, .f32⟩ : BufTy).Contents (Elt Ideal)) (n : Fin 262144) : Row.Logits := fun k => X (ix2 n k)
abbrev labelAt (L : (⟨S262144, .i32⟩ : BufTy).Contents (Elt Ideal)) (n : Fin 262144) : BitVec 32 := L (ix1 n)

/-! ### Words and constants -/

/-- A one-bit word read unsigned is the number that bit reads. -/
theorem natCast_eq_bit (b : BitVec 1) : ((b.toNat : ℝ) : EReal) = Row.bit b := by
  have h : b = 0#1 ∨ b = 1#1 := by
    rcases b with ⟨⟨v, hv⟩⟩
    have hv' : v < 2 := hv
    have h01 : v = 0 ∨ v = 1 := by omega
    rcases h01 with rfl | rfl
    · exact Or.inl rfl
    · exact Or.inr rfl
  rcases h with rfl | rfl
  · show (((0 : ℕ) : ℝ) : EReal) = (((0 : ℤ) : ℝ) : EReal)
    norm_num
  · show (((1 : ℕ) : ℝ) : EReal) = (((1 : ℤ) : ℝ) : EReal)
    norm_num

/-- Minus infinity is neutral for the maximum. -/
theorem max_negInf (y : EReal) : max (Ideal.ofBits .f32 0xFF800000#32) y = y := by
  simp [Ideal.ofBits, Ideal.ieee]

/-! ### The softmax of sample n -/

/-- The index over sample n with class k inserted on the reduced axis. -/
theorem lift_sample (hr : S262144x128.Reduces [1] S262144) (n : Fin 262144) (k : Fin (S262144x128.size 1)) :
    hr.lift (ix1 n) k = ix2 n (⟨k.val, k.isLt⟩ : Fin 128) := by
  funext c; apply Fin.ext
  match c with
  | ⟨0, _⟩ => rfl
  | ⟨1, _⟩ => rfl

/-- The row maximum (after the maximum with a row of minus infinities) is the sample's largest logit. -/
theorem rmax_apply (X : (⟨S262144x128, .f32⟩ : BufTy).Contents (Elt Ideal)) (n : Fin 262144) :
    val_main_v2 (F := Ideal) X (ix1 n) = Row.rmax (sampleOf X n) := by
  have hr : S262144x128.Reduces [1] S262144 :=
    ⟨reducesTo_S262144x128_S262144_d1.1, Nat.one_pos, reducesTo_S262144x128_S262144_d1.2⟩
  have e := Host.reduce_eq_fold_single (α := EReal) (s := S262144x128) (t := S262144) (a := (1 : Fin 2)) (u := S_)
    (FloatOps.maximumf (F := Ideal) (φ := .f32)) (X : S262144x128.Idx → EReal) (val_main_cst (F := Ideal) : S_.Idx → EReal)
    reducesTo_S262144x128_S262144_d1 hr h_S_ (ix1 n)
  have hf : (X ∘ hr.lift (ix1 n)) = sampleOf X n := funext fun k => congrArg X (lift_sample hr n k)
  have e2 : val_main_v0 (F := Ideal) X (ix1 n) = Row.rmax (sampleOf X n) :=
    e.trans (congrArg (fun f => Finset.fold max (Ideal.ofBits .f32 0xFF800000#32) f (Finset.univ : Finset (Fin 128))) hf)
  rw [val_main_v2_apply, val_main_v1_apply, val_main_cst_0_apply, e2]
  exact max_negInf _

/-- exp (x - max) at (n, k). -/
theorem ex_apply (X : (⟨S262144x128, .f32⟩ : BufTy).Contents (Elt Ideal)) (n : Fin 262144) (k : Fin 128) :
    val_main_v6 (F := Ideal) X (ix2 n k) = Row.ex (sampleOf X n) k := by
  have hi : idx_main_v3 (idx_main_v4 (ix2 n k)) = ix1 n := by
    funext a; apply Fin.ext
    match a with
    | ⟨0, _⟩ => rfl
  rw [val_main_v6_apply, val_main_v5_apply, val_main_v4_apply, val_main_v3_apply, hi, rmax_apply]
  rfl

/-- The row sum of the exponentials. -/
theorem sum_apply (X : (⟨S262144x128, .f32⟩ : BufTy).Contents (Elt Ideal)) (n : Fin 262144) :
    val_main_v7 (F := Ideal) X (ix1 n) = ∑ k : Fin 128, Row.ex (sampleOf X n) k := by
  rw [val_main_v7_apply, val_main_cst_1_apply, Ideal.ofBits_def, Ideal.ofBits_zero_f32, zero_add]
  refine Finset.sum_congr rfl fun k _ => ?_
  have hi : idx_main_v7 (ix1 n) k = ix2 n k := by
    funext a; apply Fin.ext
    match a with
    | ⟨0, _⟩ => rfl
    | ⟨1, _⟩ => rfl
  rw [hi, ex_apply]

/-- The softmax probability at (n, k). -/
theorem prob_apply (X : (⟨S262144x128, .f32⟩ : BufTy).Contents (Elt Ideal)) (n : Fin 262144) (k : Fin 128) :
    val_main_v10 (F := Ideal) X (ix2 n k) = Row.prob (sampleOf X n) k := by
  have hi : idx_main_v8 (idx_main_v9 (ix2 n k)) = ix1 n := by
    funext a; apply Fin.ext
    match a with
    | ⟨0, _⟩ => rfl
  rw [val_main_v10_apply, val_main_v9_apply, val_main_v8_apply, hi, sum_apply, ex_apply]
  rfl

/-- The word "the probability is positive" at (n, k). -/
theorem pos_apply (X : (⟨S262144x128, .f32⟩ : BufTy).Contents (Elt Ideal)) (n : Fin 262144) (k : Fin 128) :
    val_main_v12 (F := Ideal) X (ix2 n k) = Row.pos (sampleOf X n) k := by
  rw [val_main_v12_apply, val_main_v11_apply, val_main_cst_2_apply, prob_apply]
  rfl

/-- That word as a number. -/
theorem valid_apply (X : (⟨S262144x128, .f32⟩ : BufTy).Contents (Elt Ideal)) (n : Fin 262144) (k : Fin 128) :
    val_main_v27 (F := Ideal) X (ix2 n k) = Row.bit (Row.pos (sampleOf X n) k) := by
  rw [val_main_v27_apply, pos_apply]
  exact natCast_eq_bit _

/-- The bin at (n, k). -/
theorem bin_apply (X : (⟨S262144x128, .f32⟩ : BufTy).Contents (Elt Ideal)) (n : Fin 262144) (k : Fin 128) :
    val_main_v19 (F := Ideal) X (ix2 n k) = Row.bin (sampleOf X n) k := by
  rw [val_main_v19_apply, val_main_call0_v4_apply, val_main_call0_v3_apply, val_main_c_5_apply,
    val_main_call0_v2_apply, val_main_call0_v1_apply, val_main_call0_v0_apply, val_main_c_4_apply,
    val_main_v18_apply, val_main_v17_apply, val_main_c_apply, val_main_v16_apply, val_main_v15_apply,
    val_main_v14_apply, val_main_v13_apply, val_main_cst_3_apply, prob_apply]
  rfl

/-- The class word: the iota along the classes, read in the one-row array. -/
theorem classWord_apply (i : S1x128.Idx) :
    val_main_v21 (F := Ideal) i = BitVec.ofNat 32 (i 1).val := by
  rw [val_main_v21_apply, val_main_v20_apply]

/-! ### The flat position j is (sample j / 128, class j % 128) -/

theorem flat_ix (j : Fin 33554432) : idx_main_v28 (ix1 j) = ix2 (Row.divN j) (Row.modK j) := by
  funext a; apply Fin.ext
  match a with
  | ⟨0, _⟩ => rfl
  | ⟨1, _⟩ => rfl

/-- The cell word at flat position j. -/
theorem cell_apply (X : (⟨S262144x128, .f32⟩ : BufTy).Contents (Elt Ideal)) (j : Fin 33554432) :
    val_main_v30 (F := Ideal) X (ix2 j (0 : Fin 1)) = Row.flatWord (sampleOf X) j := by
  have hi : idx_main_v26 (idx_main_v30 (ix2 j (0 : Fin 1))) = ix2 (Row.divN j) (Row.modK j) := by
    funext a; apply Fin.ext
    match a with
    | ⟨0, _⟩ => rfl
    | ⟨1, _⟩ => rfl
  rw [val_main_v30_apply, val_main_v26_apply, hi, val_main_v25_apply, val_main_v24_apply, val_main_v23_apply,
    classWord_apply, val_main_v22_apply, val_main_c_6_apply, bin_apply]
  rfl

/-- The three updates at flat position j. -/
theorem updCount_apply (X : (⟨S262144x128, .f32⟩ : BufTy).Contents (Elt Ideal)) (L : (⟨S262144, .i32⟩ : BufTy).Contents (Elt Ideal))
    (j : Fin 33554432) :
    val_main_v28 (F := Ideal) X (ix1 j) = Row.wCount (sampleOf X (Row.divN j)) (labelAt L (Row.divN j)) (Row.modK j) := by
  rw [val_main_v28_apply, flat_ix, valid_apply]
  rfl
theorem updConf_apply (X : (⟨S262144x128, .f32⟩ : BufTy).Contents (Elt Ideal)) (L : (⟨S262144, .i32⟩ : BufTy).Contents (Elt Ideal))
    (j : Fin 33554432) :
    val_main_v33 (F := Ideal) X (ix1 j) = Row.wConf (sampleOf X (Row.divN j)) (labelAt L (Row.divN j)) (Row.modK j) := by
  have hi : idx_main_v33 (ix1 j) = ix2 (Row.divN j) (Row.modK j) := flat_ix j
  rw [val_main_v33_apply, hi, val_main_v32_apply, prob_apply, valid_apply]
  rfl
theorem updCorrect_apply (X : (⟨S262144x128, .f32⟩ : BufTy).Contents (Elt Ideal)) (L : (⟨S262144, .i32⟩ : BufTy).Contents (Elt Ideal))
    (j : Fin 33554432) :
    val_main_v43 (F := Ideal) X L (ix1 j) = Row.wCorrect (sampleOf X (Row.divN j)) (labelAt L (Row.divN j)) (Row.modK j) := by
  have hi : idx_main_v43 (ix1 j) = ix2 (Row.divN j) (Row.modK j) := flat_ix j
  have hl : idx_main_v37 (idx_main_v38 (ix2 (Row.divN j) (Row.modK j))) = ix1 (Row.divN j) := by
    funext a; apply Fin.ext
    match a with
    | ⟨0, _⟩ => rfl
  rw [val_main_v43_apply, hi, val_main_v42_apply, val_main_v41_apply, val_main_v40_apply, val_main_v38_apply,
    val_main_v37_apply, hl, val_main_v39_apply, classWord_apply, valid_apply]
  show ((_ : ℝ) : EReal) * _ = _
  rw [natCast_eq_bit]
  rfl

end Cert.ReferenceIdeal.RefValue

end
-- ==== Proof.LibScatterSum.lean ====
/-
  Two facts about sums over the extended reals.

  1. A one-dimensional accumulating scatter (updates u_j added into x at positions idx_j, a position outside 0 .. N-1
     dropped) is, at position i, x_i plus the sum of the updates whose position is i.
  2. Gathering the entries of a 262144 x 128 array by the flat cell  class * 15 + bin  is the same as, for each class
     and bin, summing down the samples the entries whose bin is that bin: the cell determines class and bin because a
     bin is below 15.
-/
import proofs.«110949_j635655159837_1_alg».proof.Proof.Row
import Idealize.ShloMosaic.PureOps.Ideal
import Idealize.ShloMosaic.Lib.ValueIdx

set_option maxRecDepth 16384

noncomputable section

open scoped BigOperators

namespace Hist

open Idealize.ShloMosaic Idealize.ShloMosaic.ValueIdx

/-! ## The one-axis accumulating scatter -/

section Scatter
variable {N M w : ℕ}
  (wf : ScatterDims.WF (⟨1, ![N]⟩ : Shape) (⟨2, ![M, 1]⟩ : Shape) (⟨1, ![M]⟩ : Shape) [] [0] [0] 1)

/-- The dimension numbers of a one-axis scatter through an M x 1 array of positions: no window axis, the one operand
    axis inserted and named by the one component of the index vector, which lies along axis 1 of the positions. -/
abbrev sd1 : ScatterDims (⟨1, ![N]⟩ : Shape) (⟨2, ![M, 1]⟩ : Shape) (⟨1, ![M]⟩ : Shape) := ⟨[], [0], [0], 1, wf⟩

/-- The window of update j starts at the position (j, 0) of the index array, read signed. -/
theorem sd1_start (idx : IVec (⟨2, ![M, 1]⟩ : Shape) w) (j : (⟨1, ![M]⟩ : Shape).Idx) :
    (sd1 wf).start j idx 0 = (idx (ix2 (j 0) (0 : Fin 1))).toInt := by
  unfold ScatterDims.start
  rw [dif_pos (show (0 : Fin 1) ∈ (sd1 wf).scatterDimsToOperandDims from List.mem_singleton.mpr rfl)]
  have hsi : (sd1 wf).siIdx j ⟨List.idxOf (0 : Fin 1) (sd1 wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- There is no window axis: the window coordinate on the operand's axis is 0. -/
theorem sd1_window (j : (⟨1, ![M]⟩ : Shape).Idx) : (sd1 wf).window j 0 = 0 := by
  unfold ScatterDims.window
  rw [dif_neg]
  show (0 : Fin 1) ∉ ([] : List (Fin 1))
  exact List.not_mem_nil

/-- Update j lands on entry i exactly when its position, read signed, is i (a position equal to i is inside 0 .. N-1). -/
theorem sd1_resultIdx (idx : IVec (⟨2, ![M, 1]⟩ : Shape) w) (j : (⟨1, ![M]⟩ : Shape).Idx) (i : Fin N) :
    (sd1 wf).resultIdx? j idx = some (ix1 i) ↔ (idx (ix2 (j 0) (0 : Fin 1))).toInt = (i.val : ℤ) := by
  have hsum : ∀ a : Fin 1, (sd1 wf).start j idx a + ((sd1 wf).window j a : ℤ) = (idx (ix2 (j 0) (0 : Fin 1))).toInt := by
    intro a
    obtain rfl : a = 0 := Subsingleton.elim _ _
    rw [sd1_start, sd1_window]; simp
  unfold ScatterDims.resultIdx?
  constructor
  · intro h
    split at h
    · rename_i hh
      have h1 := congrArg Fin.val (congrFun (Option.some.inj h) 0)
      have h2 := (hh 0).1
      rw [hsum 0] at h2
      simp only [hsum 0] at h1
      change (idx (ix2 (j 0) (0 : Fin 1))).toInt.toNat = i.val at h1
      omega
    · exact absurd h (by simp)
  · intro h
    have hall : ∀ a : Fin 1, 0 ≤ (sd1 wf).start j idx a + ((sd1 wf).window j a : ℤ) ∧
        (sd1 wf).start j idx a + ((sd1 wf).window j a : ℤ) < ((⟨1, ![N]⟩ : Shape).size a : ℕ) := by
      intro a
      rw [hsum a, h]
      obtain rfl : a = 0 := Subsingleton.elim _ _
      have := i.isLt
      refine ⟨by omega, ?_⟩
      show (i.val : ℤ) < (N : ℤ)
      omega
    rw [dif_pos hall]
    congr 1
    funext a
    obtain rfl : a = 0 := Subsingleton.elim _ _
    refine Fin.ext ?_
    show ((sd1 wf).start j idx 0 + ((sd1 wf).window j 0 : ℤ)).toNat = i.val
    rw [hsum 0, h]
    simp

end Scatter

/-- A rank-1 index set is the range of its coordinate. -/
def idxEquiv1 {n : ℕ} : (⟨1, ![n]⟩ : Shape).Idx ≃ Fin n where
  toFun j := j 0
  invFun a := ix1 a
  left_inv j := (eq_ix1 j).symm
  right_inv _ := rfl

/-- The accumulating scatter of M updates into a vector of N entries through an M x 1 array of positions: entry i is
    the operand's entry plus the sum of the updates whose position, read signed, is i. -/
theorem scatterAdd1_apply {N M w : ℕ}
    (wf : ScatterDims.WF (⟨1, ![N]⟩ : Shape) (⟨2, ![M, 1]⟩ : Shape) (⟨1, ![M]⟩ : Shape) [] [0] [0] 1)
    (x : (⟨1, ![N]⟩ : Shape).Idx → EReal) (idx : IVec (⟨2, ![M, 1]⟩ : Shape) w)
    (upd : (⟨1, ![M]⟩ : Shape).Idx → EReal) (i : Fin N) :
    Ideal.hostScatterAdd (⟨[], [0], [0], 1, wf⟩ : ScatterDims (⟨1, ![N]⟩ : Shape) (⟨2, ![M, 1]⟩ : Shape) (⟨1, ![M]⟩ : Shape))
        x idx upd (ix1 i)
      = x (ix1 i) + ∑ j : Fin M, if (idx (ix2 j (0 : Fin 1))).toInt = (i.val : ℤ) then upd (ix1 j) else 0 := by
  unfold Ideal.hostScatterAdd
  congr 1
  rw [Finset.sum_filter, ← Equiv.sum_comp (idxEquiv1 (n := M)).symm]
  refine Finset.sum_congr rfl (fun j _ => ?_)
  exact if_congr (sd1_resultIdx wf idx (ix1 j) i) rfl rfl

/-! ## The bin word and the cell word -/

/-- A word clipped (signed) to 0 .. 14 is, read unsigned, below 15. -/
theorem clip_lt (z : BitVec 32) : (IntOp.minsi (14#32) (IntOp.maxsi (0#32) z)).toNat < 15 := by
  unfold IntOp.minsi IntOp.maxsi
  have h14 : (14#32 : BitVec 32).toInt = 14 := by decide
  have h0 : (0#32 : BitVec 32).toInt = 0 := by decide
  have hz := BitVec.toInt_eq_toNat_cond z
  have hzlt := z.isLt
  simp only [BitVec.slt, h14, h0, decide_eq_true_eq]
  split_ifs with h1 h2 h2
  · decide
  · decide
  · decide
  · split at hz <;> omega

/-- The bin word is one of 0 .. 14. -/
theorem bin_range (x : Row.Logits) (c : Fin 128) : (Row.bin x c).toNat < 15 := clip_lt _

/-- The cell word of class k and a bin β below 15 is the number 15 k + β: below 1920, nothing wraps around. -/
theorem cell_toInt (k : ℕ) (hk : k < 128) (β : BitVec 32) (hβ : β.toNat < 15) :
    (IntOp.addi (IntOp.muli (BitVec.ofNat 32 k) (15#32)) β).toInt = ((k * 15 + β.toNat : ℕ) : ℤ) := by
  unfold IntOp.addi IntOp.muli
  have hn : (BitVec.ofNat 32 k * 15#32 + β).toNat = k * 15 + β.toNat := by
    rw [BitVec.toNat_add, BitVec.toNat_mul, BitVec.toNat_ofNat, BitVec.toNat_ofNat]
    omega
  rw [BitVec.toInt_eq_toNat_cond, hn]
  split <;> omega

/-- The cell word of a flat position is  c * 15 + b  exactly when the position's class is c and its bin is b:
    15 k + β = 15 c + b  with β, b below 15 forces k = c and β = b. -/
theorem cell_iff (X : Fin 262144 → Row.Logits) (b : Fin 15) (c : Fin 128) (j : Fin 33554432) :
    (Row.flatWord X j).toInt = ((c.val * 15 + b.val : ℕ) : ℤ)
      ↔ Row.modK j = c ∧ Row.bin (X (Row.divN j)) (Row.modK j) = BitVec.ofNat 32 b.val := by
  have hβ := bin_range (X (Row.divN j)) (Row.modK j)
  have hk : (Row.modK j).val < 128 := (Row.modK j).isLt
  have hb := b.isLt
  have hc := c.isLt
  unfold Row.flatWord
  rw [cell_toInt _ hk _ hβ]
  constructor
  · intro h
    have h' : (Row.modK j).val * 15 + (Row.bin (X (Row.divN j)) (Row.modK j)).toNat = c.val * 15 + b.val := by
      exact_mod_cast h
    refine ⟨Fin.ext (by omega), BitVec.eq_of_toNat_eq ?_⟩
    rw [BitVec.toNat_ofNat]
    omega
  · rintro ⟨h1, h2⟩
    have e1 : (Row.modK j).val = c.val := congrArg Fin.val h1
    have e2 : (Row.bin (X (Row.divN j)) (Row.modK j)).toNat = b.val := by
      rw [h2, BitVec.toNat_ofNat]
      omega
    rw [e1, e2]

/-- The word "class c is in bin b'" read as a number and multiplied by a weight: the weight when the bin is b', else 0. -/
theorem bit_inBin_mul (b' : BitVec 32) (x : Row.Logits) (c : Fin 128) (v : EReal) :
    Row.bit (Row.inBin b' x c) * v = if Row.bin x c = b' then v else 0 := by
  show Row.bit (BitVec.ofBool (Row.bin x c == b')) * v = _
  by_cases h : Row.bin x c = b'
  · rw [if_pos h, beq_iff_eq.mpr h]
    have h1 : Row.bit (BitVec.ofBool true) = 1 := by
      unfold Row.bit
      have : ((BitVec.ofBool true).setWidth 32).toInt = 1 := by decide
      rw [this]; simp
    rw [h1, one_mul]
  · rw [if_neg h, beq_eq_false_iff_ne.mpr h]
    have h0 : Row.bit (BitVec.ofBool false) = 0 := by
      unfold Row.bit
      have : ((BitVec.ofBool false).setWidth 32).toInt = 0 := by decide
      rw [this]; simp
    rw [h0, zero_mul]

/-! ## Flat positions as (sample, class) pairs -/

/-- A flat position of the 262144 x 128 array is a (sample, class) pair: position 128 n + k. -/
def flatEquiv : Fin 262144 × Fin 128 ≃ Fin 33554432 where
  toFun p := ⟨128 * p.1.val + p.2.val, by have := p.1.isLt; have := p.2.isLt; omega⟩
  invFun j := (Row.divN j, Row.modK j)
  left_inv p := by
    have h1 := p.1.isLt
    have h2 := p.2.isLt
    refine Prod.ext (Fin.ext ?_) (Fin.ext ?_)
    · show (128 * p.1.val + p.2.val) / 128 = p.1.val
      omega
    · show (128 * p.1.val + p.2.val) % 128 = p.2.val
      omega
  right_inv j := by
    refine Fin.ext ?_
    show 128 * (j.val / 128) + j.val % 128 = j.val
    omega

/-- A sum over the flat positions is the double sum over samples and classes. -/
theorem sum_flat (f : Fin 262144 → Fin 128 → EReal) :
    ∑ j : Fin 33554432, f (Row.divN j) (Row.modK j) = ∑ n : Fin 262144, ∑ k : Fin 128, f n k := by
  rw [← Equiv.sum_comp flatEquiv, Fintype.sum_prod_type]
  refine Finset.sum_congr rfl (fun n _ => Finset.sum_congr rfl (fun k _ => ?_))
  have h1 : Row.divN (flatEquiv (n, k)) = n := congrArg Prod.fst (flatEquiv.symm_apply_apply (n, k))
  have h2 : Row.modK (flatEquiv (n, k)) = k := congrArg Prod.snd (flatEquiv.symm_apply_apply (n, k))
  rw [h1, h2]

/-- Summing a weight over the flat positions whose cell word is  c * 15 + b  is the table's entry (b, c). -/
theorem sum_flat_eq_table (w : Row.Logits → BitVec 32 → Fin 128 → EReal) (X : Fin 262144 → Row.Logits)
    (L : Fin 262144 → BitVec 32) (b : Fin 15) (c : Fin 128) :
    (∑ j : Fin 33554432,
        if (Row.flatWord X j).toInt = ((c.val * 15 + b.val : ℕ) : ℤ) then w (X (Row.divN j)) (L (Row.divN j)) (Row.modK j) else 0)
      = Row.table w X L b c := by
  unfold Row.table
  have hsingle : ∀ g : Fin 128 → EReal, ∑ k : Fin 128, (if k = c then g k else 0) = g c := by
    intro g
    rw [Finset.sum_ite_eq']
    exact if_pos (Finset.mem_univ _)
  have hre : (∑ j : Fin 33554432,
        if (Row.flatWord X j).toInt = ((c.val * 15 + b.val : ℕ) : ℤ) then w (X (Row.divN j)) (L (Row.divN j)) (Row.modK j) else 0)
      = ∑ j : Fin 33554432, (fun (n : Fin 262144) (k : Fin 128) =>
          if k = c ∧ Row.bin (X n) k = BitVec.ofNat 32 b.val then w (X n) (L n) k else 0) (Row.divN j) (Row.modK j) :=
    Finset.sum_congr rfl (fun j _ => if_congr (cell_iff X b c j) rfl rfl)
  refine (hre.trans (sum_flat (fun (n : Fin 262144) (k : Fin 128) =>
    if k = c ∧ Row.bin (X n) k = BitVec.ofNat 32 b.val then w (X n) (L n) k else 0))).trans ?_
  refine Finset.sum_congr rfl (fun n _ => ?_)
  rw [bit_inBin_mul]
  simp only [ite_and]
  exact hsingle (fun k => if Row.bin (X n) k = BitVec.ofNat 32 b.val then w (X n) (L n) k else 0)

end Hist

end
-- ==== Proof.RefTables.lean ====
/-
  The reference's three 128 x 15 tables, entry by entry, over the extended reals. Each is a scatter-add, into 1920 zeros,
  of a flattened 262144 x 128 array of updates at the cells  class * 15 + bin,  reshaped to 128 x 15: entry (c, b) is the
  sum of the updates whose cell is  c * 15 + b,  which is the sum over the samples whose class c is in bin b — the same
  table the kernel accumulates block by block.
-/
import proofs.«110949_j635655159837_1_alg».proof.Proof.ReadPatched
import proofs.«110949_j635655159837_1_alg».proof.Proof.RefRows
import proofs.«110949_j635655159837_1_alg».proof.Proof.LibScatterSum
import proofs.«110949_j635655159837_1_alg».proof.Proof.Row
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open _root_.Hist

/-- The flat cell of class c and bin b. -/
def cellOf (c : Fin 128) (b : Fin 15) : Fin 1920 := ⟨c.val * 15 + b.val, by have := c.isLt; have := b.isLt; omega⟩

/-- The reference's scatter, at cell i: the operand's entry plus the sum of the updates whose cell word is i. -/
theorem scatter_apply (x : FVec Ideal S1920 .f32) (idx : IVec S33554432x1 32) (upd : FVec Ideal S33554432 .f32) (i : Fin 1920) :
    Host.scatterAdd (F := Ideal) (φ := .f32) scatter_S1920_S33554432x1_S33554432_n_0_0_1 x idx upd (ix1 i)
      = x (ix1 i) + ∑ j : Fin 33554432, if (idx (ix2 j (0 : Fin 1))).toInt = (i.val : ℤ) then upd (ix1 j) else 0 :=
  Hist.scatterAdd1_apply (N := 1920) (M := 33554432) Facts₀.scatter_S1920_S33554432x1_S33554432_n_0_0_1_wf x idx upd i

/-- The zero scalar the scatters start from. -/
theorem zero_const (i : S_.Idx) : val_main_cst_7 (F := Ideal) i = 0 := Ideal.ofBits_zero_f32

theorem tableCount_apply (X : (⟨S262144x128, .f32⟩ : BufTy).Contents (Elt Ideal)) (L : (⟨S262144, .i32⟩ : BufTy).Contents (Elt Ideal))
    (c : Fin 128) (b : Fin 15) :
    val_main_v47 (F := Ideal) X (ix2 c b) = Row.table Row.wCount (sampleOf X) (labelAt L) b c := by
  rw [val_main_v47_apply]
  have hi : idx_main_v47 (ix2 c b) = ix1 (cellOf c b) := by
    funext a; apply Fin.ext
    match a with
    | ⟨0, _⟩ => rfl
  rw [hi]
  unfold val_main_v31
  refine (scatter_apply _ _ _ (cellOf c b)).trans ?_
  rw [val_main_v29_apply, zero_const, zero_add]
  simp only [cell_apply, updCount_apply X L]
  exact Hist.sum_flat_eq_table Row.wCount (sampleOf X) (labelAt L) b c

theorem zero_const8 (i : S_.Idx) : val_main_cst_8 (F := Ideal) i = 0 := Ideal.ofBits_zero_f32
theorem zero_const9 (i : S_.Idx) : val_main_cst_9 (F := Ideal) i = 0 := Ideal.ofBits_zero_f32

theorem tableConf_apply (X : (⟨S262144x128, .f32⟩ : BufTy).Contents (Elt Ideal)) (L : (⟨S262144, .i32⟩ : BufTy).Contents (Elt Ideal))
    (c : Fin 128) (b : Fin 15) :
    val_main_v48 (F := Ideal) X (ix2 c b) = Row.table Row.wConf (sampleOf X) (labelAt L) b c := by
  rw [val_main_v48_apply]
  have hi : idx_main_v48 (ix2 c b) = ix1 (cellOf c b) := by
    funext a; apply Fin.ext
    match a with
    | ⟨0, _⟩ => rfl
  rw [hi]
  unfold val_main_v36
  rw [show val_main_v35 (F := Ideal) X = val_main_v30 (F := Ideal) X from rfl]
  refine (scatter_apply _ _ _ (cellOf c b)).trans ?_
  rw [val_main_v34_apply, zero_const8, zero_add]
  simp only [cell_apply, updConf_apply X L]
  exact Hist.sum_flat_eq_table Row.wConf (sampleOf X) (labelAt L) b c

theorem tableCorrect_apply (X : (⟨S262144x128, .f32⟩ : BufTy).Contents (Elt Ideal)) (L : (⟨S262144, .i32⟩ : BufTy).Contents (Elt Ideal))
    (c : Fin 128) (b : Fin 15) :
    val_main_v49 (F := Ideal) X L (ix2 c b) = Row.table Row.wCorrect (sampleOf X) (labelAt L) b c := by
  rw [val_main_v49_apply]
  have hi : idx_main_v49 (ix2 c b) = ix1 (cellOf c b) := by
    funext a; apply Fin.ext
    match a with
    | ⟨0, _⟩ => rfl
  rw [hi]
  unfold val_main_v46
  rw [show val_main_v45 (F := Ideal) X = val_main_v30 (F := Ideal) X from rfl]
  refine (scatter_apply _ _ _ (cellOf c b)).trans ?_
  rw [val_main_v44_apply, zero_const9, zero_add]
  simp only [cell_apply, updCorrect_apply X L]
  exact Hist.sum_flat_eq_table Row.wCorrect (sampleOf X) (labelAt L) b c

end Cert.ReferenceIdeal.RefValue

end
-- ==== Proof.Bridge.lean ====
/-
  The two programs meet. The kernel ends at the closing chain of its three final tables, transposed to 128 x 15; the
  reference ends at the same chain of its three scatter-add tables. Entry (class c, bin b) of either table is the sum over
  all samples of  [class c of the sample is in bin b] * weight  (the kernel's by accumulating block by block, the
  reference's by gathering the flat cells  c * 15 + b),  so the tables are equal and so are the results.
-/
import proofs.«110949_j635655159837_1_alg».proof.Defs
import proofs.«110949_j635655159837_1_alg».proof.Proof.KTail
import proofs.«110949_j635655159837_1_alg».proof.Proof.KValue
import proofs.«110949_j635655159837_1_alg».proof.Proof.RefRun
import proofs.«110949_j635655159837_1_alg».proof.Proof.RefTables
import Idealize.ShloMosaic.Lib.ValueIdx
import Idealize.ShloMosaic.Lib.ValueLayout

set_option maxRecDepth 16384

noncomputable section

namespace Cert.Proof.Bridge

open Idealize.ShloMosaic Idealize.ShloMosaic.TcCoe Idealize.ShloMosaic.ValueIdx Idealize.SL.Sem

/-- The kernel's count table, transposed, is the reference's. -/
theorem count_agree (m : (ℓ : Loc Cert.KernelIdeal.nD Cert.KernelIdeal.τ Cert.KernelIdeal.sig) → Buf (Elt Ideal) ℓ) (c : Dev Cert.KernelIdeal.nD) :
    transpose Cert.KernelIdeal.S128x15 [1, 0] (Cert.KernelIdeal.Gen.countFinal (F := Ideal) m c) Cert.KernelIdeal.Facts₀.transposes_S15x128_S128x15_1_0
      = Cert.ReferenceIdeal.Read.val_main_v47 (F := Ideal) (m ((c.tc : Thread Cert.KernelIdeal.nD Cert.KernelIdeal.τ).loc Cert.KernelIdeal.main_arg0)) := by
  funext i
  obtain ⟨cl, b, rfl⟩ : ∃ (cl : Fin 128) (b : Fin 15), i = ix2 cl b := ⟨i 0, i 1, eq_ix2 i⟩
  rw [transpose_ix2_apply, Cert.KernelIdeal.Gen.countFinal_apply,
    Cert.ReferenceIdeal.RefValue.tableCount_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1))]

/-- The confidence tables agree, -/
theorem conf_agree (m : (ℓ : Loc Cert.KernelIdeal.nD Cert.KernelIdeal.τ Cert.KernelIdeal.sig) → Buf (Elt Ideal) ℓ) (c : Dev Cert.KernelIdeal.nD) :
    transpose Cert.KernelIdeal.S128x15 [1, 0] (Cert.KernelIdeal.Gen.confFinal (F := Ideal) m c) Cert.KernelIdeal.Facts₀.transposes_S15x128_S128x15_1_0
      = Cert.ReferenceIdeal.Read.val_main_v48 (F := Ideal) (m ((c.tc : Thread Cert.KernelIdeal.nD Cert.KernelIdeal.τ).loc Cert.KernelIdeal.main_arg0)) := by
  funext i
  obtain ⟨cl, b, rfl⟩ : ∃ (cl : Fin 128) (b : Fin 15), i = ix2 cl b := ⟨i 0, i 1, eq_ix2 i⟩
  rw [transpose_ix2_apply, Cert.KernelIdeal.Gen.confFinal_apply,
    Cert.ReferenceIdeal.RefValue.tableConf_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1))]

/-- and the tables of correct predictions. -/
theorem correct_agree (m : (ℓ : Loc Cert.KernelIdeal.nD Cert.KernelIdeal.τ Cert.KernelIdeal.sig) → Buf (Elt Ideal) ℓ) (c : Dev Cert.KernelIdeal.nD) :
    transpose Cert.KernelIdeal.S128x15 [1, 0] (Cert.KernelIdeal.Gen.correctFinal (F := Ideal) m c) Cert.KernelIdeal.Facts₀.transposes_S15x128_S128x15_1_0
      = Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  funext i
  obtain ⟨cl, b, rfl⟩ : ∃ (cl : Fin 128) (b : Fin 15), i = ix2 cl b := ⟨i 0, i 1, eq_ix2 i⟩
  rw [transpose_ix2_apply, Cert.KernelIdeal.Gen.correctFinal_apply,
    Cert.ReferenceIdeal.RefValue.tableCorrect_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1))]

/-- The reference's last stage is the kernel's closing chain applied to the reference's three tables and the labels:
    the same host operations in the same order. -/
theorem ref_tail (X : (⟨Cert.ReferenceIdeal.S262144x128, .f32⟩ : BufTy).Contents (Elt Ideal)) (L : (⟨Cert.ReferenceIdeal.S262144, .i32⟩ : BufTy).Contents (Elt Ideal)) :
    Cert.ReferenceIdeal.Read.val_main_v71 (F := Ideal) X L
      = Cert.KernelIdeal.Hist.tailK (F := Ideal) (Cert.ReferenceIdeal.Read.val_main_v47 (F := Ideal) X) (Cert.ReferenceIdeal.Read.val_main_v48 (F := Ideal) X)
          (Cert.ReferenceIdeal.Read.val_main_v49 (F := Ideal) X L) L := by
  rfl

end Cert.Proof.Bridge

end
-- ==== Proof.lean ====
/-
  The certificate's five claims.

  The kernel computes a classwise calibration error: per block of 2048 samples it takes each row's softmax, bins each class
  probability into 15 equal bins, and adds to three 15 x 128 tables (count, confidence sum, correct count) the column sums
  of  [bin = b] * weight;  after the last block it copies the tables out, and @main closes with a short chain of host
  operations over them. The reference computes the same three tables by a scatter-add over the flat cell  class * 15 + bin
  and closes with the same chain. Over the extended reals both tables are, entry by entry, the sum over all samples of
  [the class's bin is b] * weight  (sums only re-ordered, 0 * x = 0 and 1 * x = x: no finiteness is used), so the results
  are equal. The three frames are the programs' runs with the value dropped; the idealization rewrote nothing.
-/
import proofs.«110949_j635655159837_1_alg».proof.Defs
import proofs.«110949_j635655159837_1_alg».proof.Proof.Gen.Kernel
import proofs.«110949_j635655159837_1_alg».proof.Proof.Gen.Kernel.Frame
import proofs.«110949_j635655159837_1_alg».proof.Proof.Gen.KernelIdeal
import proofs.«110949_j635655159837_1_alg».proof.Proof.Gen.KernelIdeal.Frame
import proofs.«110949_j635655159837_1_alg».proof.Proof.Gen.ReferenceIdeal
import proofs.«110949_j635655159837_1_alg».proof.Proof.Gen.Pre_finite_inputs
import proofs.«110949_j635655159837_1_alg».proof.Proof.KTail
import proofs.«110949_j635655159837_1_alg».proof.Proof.RefRun
import proofs.«110949_j635655159837_1_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the value dropped. -/
theorem frame_ri : Cert.frame_ReferenceIdeal := fun m ρ _ =>
  (θ_run Cert.ReferenceIdeal.defs _ _).mono (fun _ h c => (h c).2) (Cert.ReferenceIdeal.RefValue.run_value (F := Ideal) m ρ)

/-- The idealization rewrote no operation. -/
theorem preserves : Cert.preserves_Kernel_KernelIdeal := trivial

/-- Both idealized programs end with the closing chain of the same three tables and the same labels. -/
theorem algebraic : Cert.algebraic_KernelIdeal_ReferenceIdeal := by
  intro m ρ m' ρ' _ hagree
  refine ⟨_, Cert.KernelIdeal.Gen.run_value (F := Ideal) m ρ, ?_⟩
  refine (θ_run Cert.ReferenceIdeal.defs _ _).mono (fun _ h c => ⟨(h c).1.trans ?_, (h c).2⟩)
    (Cert.ReferenceIdeal.RefValue.run_value (F := Ideal) m' ρ')
  rw [(hagree c).1, (hagree c).2, Bridge.ref_tail, ← Bridge.count_agree m c, ← Bridge.conf_agree m c, ← Bridge.correct_agree m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
